-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_6)) (v2 : (c : Dev Cert.KernelIdeal.nD) → Buf (Elt Ideal) ((c.tc : Thread Cert.KernelIdeal.nD Cert.KernelIdeal.τ).loc Cert.KernelIdeal.main_v1_1)) (v3 : (c : Dev Cert.KernelIdeal.nD) → Buf (Elt Ideal) ((c.tc : Thread Cert.KernelIdeal.nD Cert.KernelIdeal.τ).loc Cert.KernelIdeal.main_v1_2)) (v4 : (c : Dev Cert.KernelIdeal.nD) → Buf (Elt Ideal) ((c.tc : Thread Cert.KernelIdeal.nD Cert.KernelIdeal.τ).loc Cert.KernelIdeal.main_v1_3)) (v5 : (c : Dev Cert.KernelIdeal.nD) → Buf (Elt Ideal) ((c.tc : Thread Cert.KernelIdeal.nD Cert.KernelIdeal.τ).loc Cert.KernelIdeal.main_v1_4)) (v6 : (c : Dev Cert.KernelIdeal.nD) → Buf (Elt Ideal) ((c.tc : Thread Cert.KernelIdeal.nD Cert.KernelIdeal.τ).loc Cert.KernelIdeal.main_v1_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_6) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_v1_2) = v3 c
          ∧ r.2.mem ((c.tc : Thread Cert.KernelIdeal.nD Cert.KernelIdeal.τ).loc Cert.KernelIdeal.main_v1_3) = v4 c
          ∧ r.2.mem ((c.tc : Thread Cert.KernelIdeal.nD Cert.KernelIdeal.τ).loc Cert.KernelIdeal.main_v1_4) = v5 c
          ∧ r.2.mem ((c.tc : Thread Cert.KernelIdeal.nD Cert.KernelIdeal.τ).loc Cert.KernelIdeal.main_v1_5) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_v5) = v2 c
          ∧ r.2.mem ((c.tc : Thread Cert.ReferenceIdeal.nD Cert.ReferenceIdeal.τ).loc Cert.ReferenceIdeal.main_v11) = v3 c
          ∧ r.2.mem ((c.tc : Thread Cert.ReferenceIdeal.nD Cert.ReferenceIdeal.τ).loc Cert.ReferenceIdeal.main_v17) = v4 c
          ∧ r.2.mem ((c.tc : Thread Cert.ReferenceIdeal.nD Cert.ReferenceIdeal.τ).loc Cert.ReferenceIdeal.main_v26) = v5 c
          ∧ r.2.mem ((c.tc : Thread Cert.ReferenceIdeal.nD Cert.ReferenceIdeal.τ).loc Cert.ReferenceIdeal.main_v31) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_arg7 : FVec F S8192x1024 .f32) (main_arg8 : FVec F S8192x1024 .f32) (main_v33 : IVec S_ 1) : IVec S_ 1 :=
  let main_v34 : FVec F S8192x1024 .f32 := Host.absf main_arg7
  let main_cst_12 : FVec F S_ .f32 := constant S_ .f32 0x7F800000#32
  let main_v35 : FVec F S8192x1024 .f32 := broadcastInDim S8192x1024 ![] bcast_S_S8192x1024 main_cst_12
  let main_v36 : IVec S8192x1024 1 := cmpf .olt main_v34 main_v35
  let main_c_13 : IVec S_ 1 := constantI S_ 1 1#1
  let main_v37 : IVec S_ 1 := (fun x v => Host.reduce IntOp.andi x v reducesTo_S8192x1024_S_d0_1 h_S_) main_v36 main_c_13
  let main_v38 : IVec S_ 1 := andi main_v33 main_v37
  let main_v39 : FVec F S8192x1024 .f32 := Host.absf main_arg8
  let main_cst_14 : FVec F S_ .f32 := constant S_ .f32 0x7F800000#32
  let main_v40 : FVec F S8192x1024 .f32 := broadcastInDim S8192x1024 ![] bcast_S_S8192x1024 main_cst_14
  let main_v41 : IVec S8192x1024 1 := cmpf .olt main_v39 main_v40
  let main_c_15 : IVec S_ 1 := constantI S_ 1 1#1
  let main_v42 : IVec S_ 1 := (fun x v => Host.reduce IntOp.andi x v reducesTo_S8192x1024_S_d0_1 h_S_) main_v41 main_c_15
  let main_v43 : IVec S_ 1 := andi main_v38 main_v42
  main_v43

def fn_part1 {F : FTy → Type} [FloatOps F] (main_arg4 : FVec F S8192x1024 .f32) (main_arg5 : FVec F S8192x1024 .f32) (main_arg6 : FVec F S8192x1024 .f32) (main_arg7 : FVec F S8192x1024 .f32) (main_arg8 : FVec F S8192x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S8192x1024 .f32 := Host.absf main_arg4
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  let main_v24 : FVec F S8192x1024 .f32 := Host.absf main_arg5
  let main_cst_8 : FVec F S_ .f32 := constant S_ .f32 0x7F800000#32
  let main_v25 : FVec F S8192x1024 .f32 := broadcastInDim S8192x1024 ![] bcast_S_S8192x1024 main_cst_8
  let main_v26 : IVec S8192x1024 1 := cmpf .olt main_v24 main_v25
  let main_c_9 : IVec S_ 1 := constantI S_ 1 1#1
  let main_v27 : IVec S_ 1 := (fun x v => Host.reduce IntOp.andi x v reducesTo_S8192x1024_S_d0_1 h_S_) main_v26 main_c_9
  let main_v28 : IVec S_ 1 := andi main_v23 main_v27
  let main_v29 : FVec F S8192x1024 .f32 := Host.absf main_arg6
  let main_cst_10 : FVec F S_ .f32 := constant S_ .f32 0x7F800000#32
  let main_v30 : FVec F S8192x1024 .f32 := broadcastInDim S8192x1024 ![] bcast_S_S8192x1024 main_cst_10
  let main_v31 : IVec S8192x1024 1 := cmpf .olt main_v29 main_v30
  let main_c_11 : IVec S_ 1 := constantI S_ 1 1#1
  let main_v32 : IVec S_ 1 := (fun x v => Host.reduce IntOp.andi x v reducesTo_S8192x1024_S_d0_1 h_S_) main_v31 main_c_11
  let main_v33 : IVec S_ 1 := andi main_v28 main_v32
  fn_part2 (F := F) main_arg7 main_arg8 main_v33

def fn {F : FTy → Type} [FloatOps F] (main_arg0 : FVec F S8192x1024 .f32) (main_arg1 : FVec F S8192x1024 .f32) (main_arg2 : FVec F S1024x1024 .f32) (main_arg3 : FVec F S1024x1024 .f32) (main_arg4 : FVec F S8192x1024 .f32) (main_arg5 : FVec F S8192x1024 .f32) (main_arg6 : FVec F S8192x1024 .f32) (main_arg7 : FVec F S8192x1024 .f32) (main_arg8 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S8192x1024 : Shape := ⟨2, ![8192, 1024]⟩
abbrev S1024x1024 : Shape := ⟨2, ![1024, 1024]⟩
abbrev S128x1024 : Shape := ⟨2, ![128, 1024]⟩

abbrev nBuf : Space → Nat
  | .hbm => 17
  | .vmem => 30
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S1024x1024, .bf16⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S1024x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S1024x1024, .f32⟩
  | .local _ .vmem, ⟨5, _⟩ => ⟨S1024x1024, .bf16⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .vmem, ⟨18, _⟩ => ⟨S128x1024, .f32⟩
  | .local _ .vmem, ⟨19, _⟩ => ⟨S128x1024, .f32⟩
  | .local _ .vmem, ⟨20, _⟩ => ⟨S128x1024, .f32⟩
  | .local _ .vmem, ⟨21, _⟩ => ⟨S128x1024, .f32⟩
  | .local _ .vmem, ⟨22, _⟩ => ⟨S128x1024, .f32⟩
  | .local _ .vmem, ⟨23, _⟩ => ⟨S128x1024, .f32⟩
  | .local _ .vmem, ⟨24, _⟩ => ⟨S128x1024, .f32⟩
  | .local _ .vmem, ⟨25, _⟩ => ⟨S128x1024, .f32⟩
  | .local _ .vmem, ⟨26, _⟩ => ⟨S128x1024, .f32⟩
  | .local _ .vmem, ⟨27, _⟩ => ⟨S128x1024, .f32⟩
  | .local _ .vmem, ⟨28, _⟩ => ⟨S1024x1024, .f32⟩
  | .local _ .vmem, ⟨29, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v1_4 : Ref sig .tc := ⟨.hbm, 14, rfl⟩
abbrev main_v1_5 : Ref sig .tc := ⟨.hbm, 15, rfl⟩
abbrev main_v1_6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v63 : BitVec 1 := Scalar.cmpi .eq arg0 c63_i32
  let v64 : BitVec 32 := Scalar.extui v63
  let c0_i32_47 : BitVec 32 := 0#32
  let v65 : BitVec 1 := Scalar.cmpi .ne v64 c0_i32_47
  v65

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1024x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

class Facts₀ : Prop where
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S128x1024_S128x1024_0_0 : ∀ a, (![0, 0] : Fin 2 → Nat) a + S128x1024.size a ≤ S128x1024.size a
  h_S128x1024 : 0 < S128x1024.numel
  natLt_1_32 : 1 < 32
  dot_S128x1024_S1024x1024_S128x1024_1_0_0_1_n_n_wf : DotDims.WF S128x1024 S1024x1024 S128x1024 [1] [0] [0] [1] [] []
  dot_S128x1024_S128x1024_S1024x1024_0_0_1_1_n_n_wf : DotDims.WF S128x1024 S128x1024 S1024x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S8192x1024.size a
  hwx0_0 : ∀ i : grid0.Coords, EltTy.bits .f32 = 32 ∨ (Rect.block (s := S8192x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S8192x1024.size a
  hwx0_1 : ∀ i : grid0.Coords, EltTy.bits .f32 = 32 ∨ (Rect.block (s := S8192x1024) S128x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x1024.size a ≤ S8192x1024.size a
  hwx0_4 : ∀ i : grid0.Coords, EltTy.bits .f32 = 32 ∨ (Rect.block (s := S8192x1024) S128x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x1024.size a ≤ S8192x1024.size a
  hwx0_5 : ∀ i : grid0.Coords, EltTy.bits .f32 = 32 ∨ (Rect.block (s := S8192x1024) S128x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1024.size a ≤ S8192x1024.size a
  hwx0_6 : ∀ i : grid0.Coords, EltTy.bits .f32 = 32 ∨ (Rect.block (s := S8192x1024) S128x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x1024.size a ≤ S8192x1024.size a
  hwx0_7 : ∀ i : grid0.Coords, EltTy.bits .f32 = 32 ∨ (Rect.block (s := S8192x1024) S128x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x1024.size a ≤ S8192x1024.size a
  hwx0_8 : ∀ i : grid0.Coords, EltTy.bits .f32 = 32 ∨ (Rect.block (s := S8192x1024) S128x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x1024.size a ≤ S8192x1024.size a
  hwx0_9 : ∀ i : grid0.Coords, EltTy.bits .f32 = 32 ∨ (Rect.block (s := S8192x1024) S128x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x1024.size a ≤ S8192x1024.size a
  hwx0_10 : ∀ i : grid0.Coords, EltTy.bits .f32 = 32 ∨ (Rect.block (s := S8192x1024) S128x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x1024.size a ≤ S8192x1024.size a
  hwx0_11 : ∀ i : grid0.Coords, EltTy.bits .f32 = 32 ∨ (Rect.block (s := S8192x1024) S128x1024.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S128x1024.size a ≤ S8192x1024.size a
  hwx0_12 : ∀ i : grid0.Coords, EltTy.bits .f32 = 32 ∨ (Rect.block (s := S8192x1024) S128x1024.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S128x1024.size a ≤ S8192x1024.size a
  hwx0_13 : ∀ i : grid0.Coords, EltTy.bits .f32 = 32 ∨ (Rect.block (s := S8192x1024) S128x1024.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S128x1024.size a ≤ S8192x1024.size a
  hwx0_14 : ∀ i : grid0.Coords, EltTy.bits .f32 = 32 ∨ (Rect.block (s := S8192x1024) S128x1024.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1024x1024.size a ≤ S1024x1024.size a
  hwx0_15 : ∀ i : grid0.Coords, EltTy.bits .f32 = 32 ∨ (Rect.block (s := S1024x1024) S1024x1024.size (cc0_transform_15 i) (hinb0_15 i)).WholeWords (EltTy.packing .f32)

variable [Facts₀]

def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf
def dot_S128x1024_S128x1024_S1024x1024_0_0_1_1_n_n : DotDims S128x1024 S128x1024 S1024x1024 where
  lhsContracting := [0]
  rhsContracting := [0]
  lhsNonContracting := [1]
  rhsNonContracting := [1]
  lhsBatch := []
  rhsBatch := []
  wf := dot_S128x1024_S128x1024_S1024x1024_0_0_1_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x1024.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128x1024.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v1_0) S128x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v1_1) S128x1024.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v1_2) S128x1024.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v1_3) S128x1024.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v1_4) S128x1024.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v1_5) S128x1024.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v1_6) S1024x1024.size cc0_transform_15 reads0_15 true true 1 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev idle0 : Fin 16 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun i => !(k0_cond2 i == 1#1) | ⟨_ + 16, h⟩ => absurd h (Nat.not_lt.2 (Nat.le_add_left _ _))

class Facts : Prop extends Facts₀ where

variable [Facts]
-- ==== ReferenceIdeal.lean ====
abbrev S8192x1024 : Shape := ⟨2, ![8192, 1024]⟩
abbrev S1024x1024 : Shape := ⟨2, ![1024, 1024]⟩
abbrev S_ : Shape := ⟨0, ![]⟩
abbrev S1024x8192 : Shape := ⟨2, ![1024, 8192]⟩

abbrev nBuf : Space → Nat
  | .hbm => 61
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .i1⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S1024x8192, .f32⟩
  | .hbm, ⟨53, _⟩ => ⟨S1024x1024, .f32⟩
  | .hbm, ⟨54, _⟩ => ⟨S_, .f32⟩
  | .hbm, ⟨55, _⟩ => ⟨S1024x1024, .f32⟩
  | .hbm, ⟨56, _⟩ => ⟨S1024x1024, .f32⟩
  | .hbm, ⟨57, _⟩ => ⟨S_, .f32⟩
  | .hbm, ⟨58, _⟩ => ⟨S1024x1024, .f32⟩
  | .hbm, ⟨59, _⟩ => ⟨S1024x1024, .f32⟩
  | .hbm, ⟨60, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_8 : Ref sig .tc := ⟨.hbm, 45, rfl⟩
abbrev main_v27 : Ref sig .tc := ⟨.hbm, 46, rfl⟩
abbrev main_v28 : Ref sig .tc := ⟨.hbm, 47, rfl⟩
abbrev main_cst_9 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_10 : Ref sig .tc := ⟨.hbm, 54, rfl⟩
abbrev main_v34 : Ref sig .tc := ⟨.hbm, 55, rfl⟩
abbrev main_v35 : Ref sig .tc := ⟨.hbm, 56, rfl⟩
abbrev main_cst_11 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩

abbrev nD : Nat := 1
abbrev τ : Topo := Topo.v7x

variable {F : FTy → Type} [FloatOps F]

class Facts₀ : Prop where
  bcast_S_S8192x1024 : S_.BroadcastsInDim S8192x1024 (![] : Fin 0 → Fin S8192x1024.rank)
  transposes_S8192x1024_S1024x8192_1_0 : S8192x1024.Transposes [1, 0] S1024x8192
  bcast_S_S1024x1024 : S_.BroadcastsInDim S1024x1024 (![] : Fin 0 → Fin S1024x1024.rank)
  dot_S8192x1024_S1024x1024_S8192x1024_1_0_0_1_n_n_wf : DotDims.WF S8192x1024 S1024x1024 S8192x1024 [1] [0] [0] [1] [] []
  dot_S1024x8192_S8192x1024_S1024x1024_1_0_0_1_n_n_wf : DotDims.WF S1024x8192 S8192x1024 S1024x1024 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S1024x8192_S8192x1024_S1024x1024_1_0_0_1_n_n : DotDims S1024x8192 S8192x1024 S1024x1024 where
  lhsContracting := [1]
  rhsContracting := [0]
  lhsNonContracting := [0]
  rhsNonContracting := [1]
  lhsBatch := []
  rhsBatch := []
  wf := dot_S1024x8192_S8192x1024_S1024x1024_1_0_0_1_n_n_wf

class Facts : Prop extends Facts₀ where

variable [Facts]
-- ==== Proof.Spec.lean ====
/-
  One step of a two-compartment neuron layer with a Hebbian weight update, as functions on the extended reals.

  A batch of `M` rows is processed; every row has 1024 inputs and 1024 outputs. For a row `r` and an output `j`:
  the basal voltage leaks towards the feed-forward drive `∑ k, x r k · W k j`, the apical voltage towards the feedback
  drive, the somatic voltage towards their difference; a spike is emitted where the new somatic voltage is positive;
  two eligibility traces are mixed with the input and with the soma-minus-basal mismatch; and the weight `W a b` is
  moved by the learning rate times the batch mean of `preTrace r a · postTrace r b`.

  Every row's quantities depend on that row of the batch only, so a tile of 128 consecutive rows computes the same
  numbers as the whole batch restricted to those rows; and the sum over the 8192 rows of the batch is the sum over
  the 64 tiles of the sums over each tile's 128 rows.
-/
import Idealize.ShloMosaic.Lib.ValueIdx
import Idealize.ShloMosaic.PureOps.Ideal.Laws

noncomputable section

namespace Cert.TwoComp

open Idealize.ShloMosaic Idealize.ShloMosaic.ValueIdx

/-- An `R × C` array of extended reals. -/
abbrev Mat (R C : ℕ) : Type := (⟨2, ![R, C]⟩ : Shape).Idx → EReal

/-- The nine inputs of the step for a batch of `M` rows. -/
@[ext] structure Ins (M : ℕ) where
  x : Mat M 1024
  fb : Mat M 1024
  Wff : Mat 1024 1024
  Wfb : Mat 1024 1024
  vb : Mat M 1024
  va : Mat M 1024
  vs : Mat M 1024
  rbar : Mat M 1024
  ebar : Mat M 1024

/-- The leak factor τ (the binary value nearest 0.8). -/
abbrev keep : EReal := Ideal.ofBits .f32 0x3F4CCCCD#32
/-- The drive factor 1 − τ (the binary value nearest 0.2). -/
abbrev gain : EReal := Ideal.ofBits .f32 0x3E4CCCCD#32
/-- The traces' leak factor 1 − α (the binary value nearest 0.95). -/
abbrev traceKeep : EReal := Ideal.ofBits .f32 0x3F733333#32
/-- The traces' mixing factor α (the binary value nearest 0.05). -/
abbrev traceGain : EReal := Ideal.ofBits .f32 0x3D4CCCCD#32
/-- The learning rate (the binary value nearest 1e-5). -/
abbrev rate : EReal := Ideal.ofBits .f32 0x3727C5AC#32
/-- The batch size 8192 as a float. -/
abbrev batch : EReal := Ideal.ofBits .f32 0x46000000#32
/-- The float zero the somatic voltage is compared with. -/
abbrev zero32 : EReal := Ideal.ofBits .f32 0x00000000#32

section Rows

variable {M : ℕ} (I : Ins M)

/-- The new basal voltage. -/
def basal (r : Fin M) (j : Fin 1024) : EReal :=
  keep * I.vb (ix2 r j) + gain * ∑ k : Fin 1024, I.x (ix2 r k) * I.Wff (ix2 k j)

/-- The new apical voltage. -/
def apical (r : Fin M) (j : Fin 1024) : EReal :=
  keep * I.va (ix2 r j) + gain * ∑ k : Fin 1024, I.fb (ix2 r k) * I.Wfb (ix2 k j)

/-- The new somatic voltage. -/
def soma (r : Fin M) (j : Fin 1024) : EReal :=
  keep * I.vs (ix2 r j) + gain * (basal I r j - apical I r j)

/-- The spike: 1 where the new somatic voltage is above zero, else 0. -/
def spike (r : Fin M) (j : Fin 1024) : EReal :=
  (((Ideal.cmp .ogt (soma I r j) zero32).toNat : ℝ) : EReal)

/-- The new presynaptic trace. -/
def preTrace (r : Fin M) (j : Fin 1024) : EReal :=
  traceKeep * I.rbar (ix2 r j) + traceGain * I.x (ix2 r j)

/-- The new postsynaptic trace, mixed with the soma-minus-basal mismatch. -/
def postTrace (r : Fin M) (j : Fin 1024) : EReal :=
  traceKeep * I.ebar (ix2 r j) + traceGain * (soma I r j - basal I r j)

/-- The Hebbian outer product summed over the batch's rows. -/
def hebb (a b : Fin 1024) : EReal :=
  ∑ r : Fin M, preTrace I r a * postTrace I r b

/-- The new weight: the old one plus the rate times the batch mean of the outer product. -/
def weight (a b : Fin 1024) : EReal :=
  I.Wff (ix2 a b) + rate * Ideal.div (hebb I a b) batch

end Rows

/-! ## The seven results as whole arrays -/

section Arrays

variable {M : ℕ} (I : Ins M)

/-- The spikes of the whole batch. -/
def spikeA : Mat M 1024 := fun i => spike I (i 0) (i 1)
/-- The new basal voltages of the whole batch. -/
def basalA : Mat M 1024 := fun i => basal I (i 0) (i 1)
/-- The new apical voltages of the whole batch. -/
def apicalA : Mat M 1024 := fun i => apical I (i 0) (i 1)
/-- The new somatic voltages of the whole batch. -/
def somaA : Mat M 1024 := fun i => soma I (i 0) (i 1)
/-- The new presynaptic traces of the whole batch. -/
def preTraceA : Mat M 1024 := fun i => preTrace I (i 0) (i 1)
/-- The new postsynaptic traces of the whole batch. -/
def postTraceA : Mat M 1024 := fun i => postTrace I (i 0) (i 1)
/-- The new weights. -/
def weightA : Mat 1024 1024 := fun i => weight I (i 0) (i 1)

end Arrays

/-! ## Tiles of 128 rows -/

/-- Row `p` of tile `t` is row `128 t + p` of the batch. -/
def rowOf (t : Fin 64) (p : Fin 128) : Fin 8192 := ⟨128 * t.val + p.val, by omega⟩

/-- Tile `t` of the batch: its 128 rows of every per-row input, the two weight matrices whole. -/
def Ins.tile (I : Ins 8192) (t : Fin 64) : Ins 128 where
  x := fun i => I.x (ix2 (rowOf t (i 0)) (i 1))
  fb := fun i => I.fb (ix2 (rowOf t (i 0)) (i 1))
  Wff := I.Wff
  Wfb := I.Wfb
  vb := fun i => I.vb (ix2 (rowOf t (i 0)) (i 1))
  va := fun i => I.va (ix2 (rowOf t (i 0)) (i 1))
  vs := fun i => I.vs (ix2 (rowOf t (i 0)) (i 1))
  rbar := fun i => I.rbar (ix2 (rowOf t (i 0)) (i 1))
  ebar := fun i => I.ebar (ix2 (rowOf t (i 0)) (i 1))

variable (I : Ins 8192)

/-- A tile's rows compute what the batch computes on those rows. -/
theorem basal_tile (t : Fin 64) (p : Fin 128) (j : Fin 1024) : basal (I.tile t) p j = basal I (rowOf t p) j := rfl
theorem apical_tile (t : Fin 64) (p : Fin 128) (j : Fin 1024) : apical (I.tile t) p j = apical I (rowOf t p) j := rfl
theorem soma_tile (t : Fin 64) (p : Fin 128) (j : Fin 1024) : soma (I.tile t) p j = soma I (rowOf t p) j := rfl
theorem spike_tile (t : Fin 64) (p : Fin 128) (j : Fin 1024) : spike (I.tile t) p j = spike I (rowOf t p) j := rfl
theorem preTrace_tile (t : Fin 64) (p : Fin 128) (j : Fin 1024) : preTrace (I.tile t) p j = preTrace I (rowOf t p) j := rfl
theorem postTrace_tile (t : Fin 64) (p : Fin 128) (j : Fin 1024) :
    postTrace (I.tile t) p j = postTrace I (rowOf t p) j := rfl

/-- The outer product of tile number `s`, as a function of every natural (zero past the last tile). -/
def tileHebb (s : ℕ) : Mat 1024 1024 := fun i =>
  if h : s < 64 then hebb (I.tile ⟨s, h⟩) (i 0) (i 1) else 0

/-- A sum over the 8192 rows of the batch is the sum over the 64 tiles of the sums over each tile's 128 rows. -/
theorem sum_rows (g : Fin 8192 → EReal) : (∑ r : Fin 8192, g r) = ∑ t : Fin 64, ∑ p : Fin 128, g (rowOf t p) := by
  have e := Equiv.sum_comp (finProdFinEquiv : Fin 64 × Fin 128 ≃ Fin (64 * 128)) (g : Fin (64 * 128) → EReal)
  rw [Fintype.sum_prod_type] at e
  refine e.symm.trans ?_
  refine Finset.sum_congr rfl fun t _ => Finset.sum_congr rfl fun p _ => congrArg g (Fin.ext ?_)
  show p.val + 128 * t.val = 128 * t.val + p.val
  omega

/-- The batch's outer product is the sum of the 64 tiles' outer products. -/
theorem hebb_eq_sum_tiles (a b : Fin 1024) :
    hebb I a b = ∑ s ∈ Finset.range 64, tileHebb I s (ix2 a b) := by
  have e2 : (∑ s ∈ Finset.range 64, tileHebb I s (ix2 a b)) = ∑ t : Fin 64, hebb (I.tile t) a b := by
    rw [← Fin.sum_univ_eq_sum_range (fun s => tileHebb I s (ix2 a b)) 64]
    refine Finset.sum_congr rfl fun t _ => ?_
    show (if h : t.val < 64 then hebb (I.tile ⟨t.val, h⟩) a b else 0) = _
    rw [dif_pos t.isLt]
  rw [e2]
  unfold hebb
  rw [sum_rows]
  rfl

/-! ## The order of the rate and the mean -/

/-- The float 8192 denotes the real 8192. -/
theorem batch_eq : batch = ((8192 : ℝ) : EReal) := by
  simp [batch, Ideal.ofBits, Ideal.ieee, -EReal.coe_mul]; norm_num

/-- Scaling by the rate before or after dividing by the batch size is the same on the extended reals: division by
    a nonzero real is a product, and products associate. -/
theorem div_rate (h : EReal) : Ideal.div (rate * h) batch = rate * Ideal.div h batch := by
  rw [batch_eq, Ideal.div_coe (by norm_num : (8192 : ℝ) ≠ 0), Ideal.div_coe (by norm_num : (8192 : ℝ) ≠ 0), mul_assoc]

/-- The new weight with the rate applied before the division. -/
theorem weight_eq (a b : Fin 1024) :
    weight I a b = I.Wff (ix2 a b) + Ideal.div (rate * hebb I a b) batch := by
  unfold weight
  rw [div_rate]

end Cert.TwoComp

end
-- ==== Proof.LibDense.lean ====
/-
  One dense layer with ReLU, row by row.

  For a row `h` of `K` numbers, a `K × N` weight matrix `W` and a bias row `b`, the layer's entry `j` is
  `max (∑ k, h k · W k j + b j) 0` on the extended reals. A rows-by-columns matrix product (no batch axis, the left
  operand contracted on its columns, the right on its rows) read at (r, j) is `∑ k, lhs (r, k) · rhs (k, j)`, whether
  it is accumulated into a zero array or has no accumulator; adding a bias row laid along every row and taking the
  maximum with zero then gives the layer of row `r`. Nothing here depends on the number of rows, so a product over
  a tile of rows and a product over all rows read the same way.
-/
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws

noncomputable section

namespace Cert.LibDense

open Idealize.ShloMosaic Idealize.ShloMosaic.ValueIdx

/-- One dense layer followed by ReLU on one row: entry `j` is `max (∑ k, h k · W k j + b j) 0`. -/
def dense {K N : ℕ} (h : Fin K → EReal) (W : Fin K → Fin N → EReal) (b : Fin N → EReal) (j : Fin N) : EReal :=
  max (∑ k : Fin K, h k * W k j + b j) 0

/-- The layer depends on its input row only through the row's entries. -/
theorem dense_congr {K N : ℕ} {h h' : Fin K → EReal} (e : ∀ k, h k = h' k) (W : Fin K → Fin N → EReal) (b : Fin N → EReal)
    (j : Fin N) : dense h W b j = dense h' W b j := by
  rw [show h = h' from funext e]

section Plain

variable {M K N : ℕ}

/-- The rows-by-columns product's left operand index keeps the result's row. -/
theorem plain_lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from fun h => nomatch h),
    dif_pos (show (0 : Fin (⟨2, ![M, K]⟩ : Shape).rank) ∈ (DotDims.plain M K N).lhsNonContracting from List.mem_singleton.mpr rfl)]
  rfl

/-- Its column is the contraction position. -/
theorem plain_lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction position. -/
theorem plain_rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- Its column is the result's column. -/
theorem plain_rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from fun h => nomatch h),
    dif_pos (show (1 : Fin (⟨2, ![K, N]⟩ : Shape).rank) ∈ (DotDims.plain M K N).rhsNonContracting from List.mem_singleton.mpr rfl)]
  rfl

/-- The sum over the product's contraction index, re-indexed by the contracted coordinate `k : Fin K`, with the
    operands read at (r, k) and (k, j). -/
theorem plain_sum {φ₁ φ₂ : FTy} (lhs : FVec Ideal ⟨2, ![M, K]⟩ φ₁) (rhs : FVec Ideal ⟨2, ![K, N]⟩ φ₂) (r : Fin M) (j : Fin N) :
    (∑ q : (DotDims.plain M K N).contr.Idx,
        lhs ((DotDims.plain M K N).lhsIdx (ix2 r j) q) * rhs ((DotDims.plain M K N).rhsIdx (ix2 r j) q))
      = ∑ k : Fin K, lhs (ix2 r k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun a => Fin.ext (by
      match a with
      | ⟨0, _⟩ => exact plain_lhs_row _ _
      | ⟨1, _⟩ => exact (plain_lhs_col _ _).trans hk)
  have er : (DotDims.plain M K N).rhsIdx (ix2 r j) ((contrEquiv1 (DotDims.plain M K N) K rfl rfl).symm k) = ix2 k j :=
    funext fun a => Fin.ext (by
      match a with
      | ⟨0, _⟩ => exact (plain_rhs_row _ _).trans hk
      | ⟨1, _⟩ => exact plain_rhs_col _ _)
  rw [el, er]

/-- A rows-by-columns product accumulated into a zero array, read at (r, j). -/
theorem matmul_plain_zero_apply {φ₁ φ₂ : FTy} (prec : Option ContractPrecision) (lhs : FVec Ideal ⟨2, ![M, K]⟩ φ₁)
    (rhs : FVec Ideal ⟨2, ![K, N]⟩ φ₂) (r : Fin M) (j : Fin N) :
    FloatOps.matmul (DotDims.plain M K N) prec lhs rhs (constant ⟨2, ![M, N]⟩ .f32 0x00000000#32) (ix2 r j)
      = ∑ k : Fin K, lhs (ix2 r k) * rhs (ix2 k j) := by
  rw [Ideal.matmul_constant_zero_apply]
  exact plain_sum lhs rhs r j

/-- The host's rows-by-columns product, read at (r, j). -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (r : Fin M) (j : Fin N) :
    FloatOps.dotGeneral (DotDims.plain M K N) prec sched lhs rhs (ix2 r j) = ∑ k : Fin K, lhs (ix2 r k) * rhs (ix2 k j) := by
  rw [Ideal.dotGeneral_apply]
  exact plain_sum lhs rhs r j

end Plain

/-! ## The layer as a kernel and as a host program spell it -/

section Layers

variable {M K N : ℕ} {φ₁ φ₂ : FTy}

/-- A kernel's layer — the product into a zero accumulator, a one-row bias laid along every row, the maximum with a
    splat zero — read at (r, j), given the input's row `r`. The product's dimension numbers may be any record that
    IS the rows-by-columns one. -/
theorem kernel_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨2, ![1, N]⟩ .f32) (hb : (⟨2, ![1, N]⟩ : Shape).Broadcasts ⟨2, ![M, N]⟩) (r : Fin M) (j : Fin N)
    (row : Fin K → EReal) (hrow : ∀ k, h (ix2 r k) = row k) :
    maximumf (addf (matmul d prec h W (constant (F := Ideal) ⟨2, ![M, N]⟩ .f32 0x00000000#32)) (broadcastTo ⟨2, ![M, N]⟩ b hb))
        (broadcast ⟨2, ![M, N]⟩ (Scalar.ofBits (F := Ideal) .f32 0x00000000#32)) (ix2 r j)
      = dense row (fun k j => W (ix2 k j)) (fun j => b (ix2 (0 : Fin 1) j)) j := by
  subst hd
  show max (FloatOps.matmul (DotDims.plain M K N) prec h W (constant ⟨2, ![M, N]⟩ .f32 0x00000000#32) (ix2 r j)
      + broadcastTo ⟨2, ![M, N]⟩ b hb (ix2 r j)) (Ideal.ofBits .f32 0x00000000#32) = _
  rw [matmul_plain_zero_apply, broadcastTo_1b_ab_apply, Ideal.ofBits_zero_f32]
  unfold dense
  simp only [hrow]

/-- A host program's layer — the product, a bias vector laid along axis 1 of a one-row matrix and that row down the
    rows, the maximum with a broadcast zero — read at (e, j), given the input's row `e`. -/
theorem host_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (e : Fin M) (j : Fin N)
    (row : Fin K → EReal) (hrow : ∀ k, h (ix2 e k) = row k) :
    maximumf (addf (Host.dotGeneral d prec h W)
          (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32)) (ix2 e j)
      = dense row (fun k j => W (ix2 k j)) (fun j => b (ix1 j)) j := by
  subst hd
  have e2 := broadcastInDim_oneRow_apply h2 (broadcastInDim ⟨2, ![1, N]⟩ ![1] h1 b) e j
  have e1 := broadcastInDim_apply ![1] h1 b (ix2 (0 : Fin 1) j) (ix1 j) (fun a => by
    match a with
    | ⟨0, _⟩ =>
      show j.val = if N = 1 then 0 else j.val
      split
      · have := j.isLt; omega
      · rfl)
  have e0 := broadcastInDim_apply ![] h0 (constant (F := Ideal) ⟨0, ![]⟩ .f32 0x00000000#32) (ix2 e j) (fun a => a.elim0)
    (fun a => a.elim0)
  show max (FloatOps.dotGeneral (DotDims.plain M K N) prec .single h W (ix2 e j)
      + broadcastInDim ⟨2, ![M, N]⟩ ![0, 1] h2 (broadcastInDim ⟨2, ![1, N]⟩ ![1] h1 b) (ix2 e j))
      (broadcastInDim ⟨2, ![M, N]⟩ ![] h0 (constant (F := Ideal) ⟨0, ![]⟩ .f32 0x00000000#32) (ix2 e j)) = _
  rw [dotGeneral_plain_apply, e2, e1, e0]
  show max _ (Ideal.ofBits .f32 0x00000000#32) = _
  rw [Ideal.ofBits_zero_f32]
  unfold dense
  simp only [hrow]

end Layers

end Cert.LibDense

end
-- ==== Proof.LibOuter.lean ====
/-
  A matrix product that contracts the ROWS of both operands.

  For a `K × M` left operand and a `K × N` right operand the result is `M × N`, and its entry (a, b) is
  `∑ k, lhs (k, a) · rhs (k, b)` on the extended reals: the left operand's transpose times the right operand, a sum of
  `K` outer products. Read here at an index when it is accumulated into a zero array.
-/
import Idealize.ShloMosaic.Lib.ValueIdx
import Idealize.ShloMosaic.PureOps.Ideal.Laws

noncomputable section

namespace Cert.LibOuter

open Idealize.ShloMosaic Idealize.ShloMosaic.ValueIdx

/-- The dimension numbers of the product: both operands contracted on axis 0, the result's rows the left operand's
    columns, its columns the right operand's. -/
def colsByCols (K M N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

section Axes

variable {K M N : ℕ}

/-- The left operand's row is the contraction position. -/
theorem lhs_row (i : (⟨2, ![M, N]⟩ : Shape).Idx) (q : (colsByCols K M N).contr.Idx) :
    ((colsByCols K M N).lhsIdx i q 0).val = (q ⟨0, Nat.one_pos⟩).val :=
  (colsByCols K M N).lhsIdx_val_of_single rfl i q

/-- Its column is the result's row. -/
theorem lhs_col (i : (⟨2, ![M, N]⟩ : Shape).Idx) (q : (colsByCols K M N).contr.Idx) :
    ((colsByCols K M N).lhsIdx i q 1).val = (i 0).val := by
  unfold DotDims.lhsIdx
  rw [dif_neg (show ¬(1 : Fin (⟨2, ![K, M]⟩ : Shape).rank) ∈ (colsByCols K M N).lhsBatch from fun h => nomatch h),
    dif_pos (show (1 : Fin (⟨2, ![K, M]⟩ : Shape).rank) ∈ (colsByCols K M N).lhsNonContracting from List.mem_singleton.mpr rfl)]
  rfl

/-- The right operand's row is the contraction position. -/
theorem rhs_row (i : (⟨2, ![M, N]⟩ : Shape).Idx) (q : (colsByCols K M N).contr.Idx) :
    ((colsByCols K M N).rhsIdx i q 0).val = (q ⟨0, Nat.one_pos⟩).val :=
  (colsByCols K M N).rhsIdx_val_of_single rfl i q

/-- Its column is the result's column. -/
theorem rhs_col (i : (⟨2, ![M, N]⟩ : Shape).Idx) (q : (colsByCols K M N).contr.Idx) :
    ((colsByCols K M N).rhsIdx i q 1).val = (i 1).val := by
  unfold DotDims.rhsIdx
  rw [dif_neg (show ¬(1 : Fin (⟨2, ![K, N]⟩ : Shape).rank) ∈ (colsByCols K M N).rhsBatch from fun h => nomatch h),
    dif_pos (show (1 : Fin (⟨2, ![K, N]⟩ : Shape).rank) ∈ (colsByCols K M N).rhsNonContracting from List.mem_singleton.mpr rfl)]
  rfl

/-- The sum over the contraction index, re-indexed by the contracted row `k : Fin K`, with the operands read at
    (k, a) and (k, b). -/
theorem sum_rows {φ₁ φ₂ : FTy} (lhs : FVec Ideal ⟨2, ![K, M]⟩ φ₁) (rhs : FVec Ideal ⟨2, ![K, N]⟩ φ₂) (a : Fin M) (b : Fin N) :
    (∑ q : (colsByCols K M N).contr.Idx,
        lhs ((colsByCols K M N).lhsIdx (ix2 a b) q) * rhs ((colsByCols K M N).rhsIdx (ix2 a b) q))
      = ∑ k : Fin K, lhs (ix2 k a) * rhs (ix2 k b) := by
  rw [← Equiv.sum_comp (contrEquiv1 (colsByCols K M N) K rfl rfl).symm]
  refine Finset.sum_congr rfl fun k _ => ?_
  have hk := contrEquiv1_symm_val (colsByCols K M N) K rfl rfl k
  have el : (colsByCols K M N).lhsIdx (ix2 a b) ((contrEquiv1 (colsByCols K M N) K rfl rfl).symm k) = ix2 k a :=
    funext fun x => Fin.ext (by
      match x with
      | ⟨0, _⟩ => exact (lhs_row _ _).trans hk
      | ⟨1, _⟩ => exact lhs_col _ _)
  have er : (colsByCols K M N).rhsIdx (ix2 a b) ((contrEquiv1 (colsByCols K M N) K rfl rfl).symm k) = ix2 k b :=
    funext fun x => Fin.ext (by
      match x with
      | ⟨0, _⟩ => exact (rhs_row _ _).trans hk
      | ⟨1, _⟩ => exact rhs_col _ _)
  rw [el, er]

/-- The product accumulated into a zero array, read at (a, b). The dimension numbers may be any record that IS the
    rows-contracted one. -/
theorem matmul_zero_apply {φ₁ φ₂ : FTy} (d : DotDims ⟨2, ![K, M]⟩ ⟨2, ![K, N]⟩ ⟨2, ![M, N]⟩) (hd : d = colsByCols K M N)
    (prec : Option ContractPrecision) (lhs : FVec Ideal ⟨2, ![K, M]⟩ φ₁) (rhs : FVec Ideal ⟨2, ![K, N]⟩ φ₂)
    (a : Fin M) (b : Fin N) :
    FloatOps.matmul d prec lhs rhs (constant ⟨2, ![M, N]⟩ .f32 0x00000000#32) (ix2 a b)
      = ∑ k : Fin K, lhs (ix2 k a) * rhs (ix2 k b) := by
  subst hd
  rw [Ideal.matmul_constant_zero_apply]
  exact sum_rows lhs rhs a b

end Axes

end Cert.LibOuter

end
-- ==== Proof.Payloads.lean ====
/-
  The kernel body's arithmetic, read at an index on the extended reals.

  At one grid point the body loads a tile of 128 rows of the seven per-row inputs and both weight matrices whole,
  and stores, for that tile, the spikes, the three new voltages and the two new traces; it adds the tile's outer
  product of the traces to an accumulator, and at the last point stores the new weights computed from the
  accumulator. Each stored value, read at (row, column), is the specification's function of the tile's inputs: a
  change of float format is the identity, a matrix product into a zero array is a sum over the contracted axis, and a
  bit widened to 32 bits and converted as a signed integer is the bit's value 0 or 1.
-/
import proofs.«159914_j9990093930915_1_alg».proof.Proof.Gen.KernelIdeal.Skeleton
import proofs.«159914_j9990093930915_1_alg».proof.Proof.Spec
import proofs.«159914_j9990093930915_1_alg».proof.Proof.LibDense
import proofs.«159914_j9990093930915_1_alg».proof.Proof.LibOuter

noncomputable section

namespace Cert.TwoComp

open Cert.KernelIdeal Cert.KernelIdeal.Gen Idealize.ShloMosaic Idealize.ShloMosaic.ValueIdx

/-- A one-bit value widened with zeros to 32 bits and read as a signed integer is the bit's value. -/
theorem signed_of_widened_bit (b : BitVec 1) :
    (((b.setWidth 32).toInt : ℝ) : EReal) = (((b.toNat : ℕ) : ℝ) : EReal) := by
  by_cases h : b = 1#1
  · subst h; simp
  · have h0 := eq_zero_of_ne_one h; subst h0; simp

/-- The tile whose blocks are the nine loaded values. -/
def ofBlocks (x0 x1 : Vec Ideal S128x1024 .f32) (x2 : Vec Ideal S1024x1024 .f32) (x3 : Vec Ideal S1024x1024 .bf16)
    (x4 x5 x6 x7 x8 : Vec Ideal S128x1024 .f32) : Ins 128 :=
  ⟨x0, x1, x2, x3, x4, x5, x6, x7, x8⟩

section Tile

variable (x0 x1 : Vec Ideal S128x1024 .f32) (x2 : Vec Ideal S1024x1024 .f32) (x3 : Vec Ideal S1024x1024 .bf16)
  (x4 x5 x6 x7 x8 : Vec Ideal S128x1024 .f32)

local notation "T" => ofBlocks x0 x1 x2 x3 x4 x5 x6 x7 x8

/-- The stored basal voltage. -/
theorem basal_stored (p : Fin 128) (q : Fin 1024) :
    k0_pay3 (F := Ideal) x0 x2 x4 (ix2 p q) = basal T p q := by
  show keep * x4 (ix2 p q) + gain * FloatOps.matmul (F := Ideal) dot_S128x1024_S1024x1024_S128x1024_1_0_0_1_n_n none
      (truncf .bf16 x0 bitsLt_bf16_f32) (truncf .bf16 x2 bitsLt_bf16_f32) (constant S128x1024 .f32 0x00000000#32) (ix2 p q) = _
  rw [show dot_S128x1024_S1024x1024_S128x1024_1_0_0_1_n_n = DotDims.plain 128 1024 1024 from rfl,
    Cert.LibDense.matmul_plain_zero_apply]
  rfl

/-- The stored apical voltage. -/
theorem apical_stored (p : Fin 128) (q : Fin 1024) :
    k0_pay4 (F := Ideal) x1 x3 x5 (ix2 p q) = apical T p q := by
  show keep * x5 (ix2 p q) + gain * FloatOps.matmul (F := Ideal) dot_S128x1024_S1024x1024_S128x1024_1_0_0_1_n_n none
      (truncf .bf16 x1 bitsLt_bf16_f32) (shapeCast S1024x1024 x3 shapeCasts_S1024x1024_S1024x1024)
      (constant S128x1024 .f32 0x00000000#32) (ix2 p q) = _
  rw [show dot_S128x1024_S1024x1024_S128x1024_1_0_0_1_n_n = DotDims.plain 128 1024 1024 from rfl,
    Cert.LibDense.matmul_plain_zero_apply, shapeCast_self]
  rfl

/-- The stored somatic voltage. -/
theorem soma_stored (p : Fin 128) (q : Fin 1024) :
    k0_pay7 (F := Ideal) (k0_pay5 x6) (k0_pay6 x0 x1 x2 x3 x4 x5) (ix2 p q) = soma T p q := by
  show keep * x6 (ix2 p q) + gain * (k0_pay3 (F := Ideal) x0 x2 x4 (ix2 p q) - k0_pay4 (F := Ideal) x1 x3 x5 (ix2 p q)) = _
  rw [basal_stored, apical_stored]
  rfl

/-- The stored spikes. -/
theorem spike_stored (p : Fin 128) (q : Fin 1024) :
    k0_pay8 (F := Ideal) (k0_pay5 x6) (k0_pay6 x0 x1 x2 x3 x4 x5) (ix2 p q) = spike T p q := by
  show ((((Ideal.cmp .ogt (k0_pay7 (F := Ideal) (k0_pay5 x6) (k0_pay6 x0 x1 x2 x3 x4 x5) (ix2 p q)) zero32).setWidth 32).toInt : ℝ) : EReal) = _
  rw [soma_stored, signed_of_widened_bit]
  rfl

/-- The stored presynaptic trace. -/
theorem preTrace_stored (p : Fin 128) (q : Fin 1024) :
    k0_pay9 (F := Ideal) x0 x7 (ix2 p q) = preTrace T p q := rfl

/-- The stored postsynaptic trace. -/
theorem postTrace_stored (p : Fin 128) (q : Fin 1024) :
    k0_pay10 (F := Ideal) x8 (k0_pay3 x0 x2 x4) (k0_pay5 x6) (k0_pay6 x0 x1 x2 x3 x4 x5) (ix2 p q) = postTrace T p q := by
  show traceKeep * x8 (ix2 p q) + traceGain * (k0_pay7 (F := Ideal) (k0_pay5 x6) (k0_pay6 x0 x1 x2 x3 x4 x5) (ix2 p q)
      - k0_pay3 (F := Ideal) x0 x2 x4 (ix2 p q)) = _
  rw [soma_stored, basal_stored]
  rfl

/-- The accumulator after the point: what it held plus the tile's outer product of the new traces. -/
theorem acc_stored (acc : Vec Ideal S1024x1024 .f32) (a b : Fin 1024) :
    k0_pay11 (F := Ideal) x0 x7 x8 (k0_pay3 x0 x2 x4) (k0_pay5 x6) (k0_pay6 x0 x1 x2 x3 x4 x5) acc (ix2 a b)
      = acc (ix2 a b) + hebb T a b := by
  unfold k0_pay11
  rw [shapeCast_self]
  show acc (ix2 a b) + FloatOps.matmul (F := Ideal) dot_S128x1024_S128x1024_S1024x1024_0_0_1_1_n_n none
      (truncf .bf16 (k0_pay9 (F := Ideal) x0 x7) bitsLt_bf16_f32)
      (truncf .bf16 (k0_pay10 (F := Ideal) x8 (k0_pay3 x0 x2 x4) (k0_pay5 x6) (k0_pay6 x0 x1 x2 x3 x4 x5)) bitsLt_bf16_f32)
      (constant S1024x1024 .f32 0x00000000#32) (ix2 a b) = _
  rw [Cert.LibOuter.matmul_zero_apply dot_S128x1024_S128x1024_S1024x1024_0_0_1_1_n_n rfl]
  refine congrArg (acc (ix2 a b) + ·) (Finset.sum_congr rfl fun k _ => ?_)
  show k0_pay9 (F := Ideal) x0 x7 (ix2 k a) * k0_pay10 (F := Ideal) x8 (k0_pay3 x0 x2 x4) (k0_pay5 x6) (k0_pay6 x0 x1 x2 x3 x4 x5) (ix2 k b) = _
  rw [preTrace_stored, postTrace_stored]

end Tile

/-- The zero the accumulator is reset to at the first point. -/
theorem reset_stored (i : S1024x1024.Idx) : k0_pay2 (F := Ideal) i = 0 := by
  show Ideal.ofBits .f32 0x00000000#32 = 0
  exact Ideal.ofBits_zero_f32

/-- The new weights stored at the last point, from the old weights and the accumulator. -/
theorem weight_stored (w acc : Vec Ideal S1024x1024 .f32) (i : S1024x1024.Idx) :
    k0_pay1 (F := Ideal) w acc i = w i + Ideal.div (rate * acc i) batch := rfl

end Cert.TwoComp

end
-- ==== Proof.Tiles.lean ====
/- The kernel's input blocks at a grid point are a tile of the batch.

  The grid has 64 points. At point `t` the seven per-row input windows hold rows `128 t … 128 t + 127` of their
  arrays and the two weight windows hold their arrays whole (the feedback weights through the copy the host makes of
  them before the launch, a change of float format, which on the extended reals is the identity). So the nine blocks
  the body loads at point `t` are tile `t` of the batch of argument arrays.
-/
import proofs.«159914_j9990093930915_1_alg».proof.Proof.ValueKI
import proofs.«159914_j9990093930915_1_alg».proof.Proof.Payloads
import Idealize.ShloMosaic.Lib.StableHlo.Run

noncomputable section

namespace Cert.TwoComp

open Cert.KernelIdeal Cert.KernelIdeal.Gen Cert.KernelIdeal.GenP Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The batch the kernel is launched on: its nine argument arrays. -/
def batchOf (c : Dev nD) : Ins 8192 where
  x := m ((c : Thread nD τ).loc main_arg0)
  fb := m ((c : Thread nD τ).loc main_arg1)
  Wff := m ((c : Thread nD τ).loc main_arg2)
  Wfb := m ((c : Thread nD τ).loc main_arg3)
  vb := m ((c : Thread nD τ).loc main_arg4)
  va := m ((c : Thread nD τ).loc main_arg5)
  vs := m ((c : Thread nD τ).loc main_arg6)
  rbar := m ((c : Thread nD τ).loc main_arg7)
  ebar := m ((c : Thread nD τ).loc main_arg8)

/-- A grid point as a tile number. -/
def tileNo (t : Fin cfg0.N) : Fin 64 := ⟨t.val, lt_of_lt_of_eq t.isLt N_0⟩

/-! ## The printed index maps, decided over the grid -/

theorem idx_in0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_in1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx_in4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)
theorem idx_in5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)
theorem idx_in6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)
theorem idx_in7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)
theorem idx_in8 : ∀ t : Fin cfg0.N, win0_8.index t (0 : Fin 2) = t.val ∧ win0_8.index t (1 : Fin 2) = 0 :=
  (by decide +kernel : ∀ t : Fin grid0.N, win0_8.index t (0 : Fin 2) = t.val ∧ win0_8.index t (1 : Fin 2) = 0)
theorem idx_in9 : ∀ t : Fin cfg0.N, win0_9.index t (0 : Fin 2) = t.val ∧ win0_9.index t (1 : Fin 2) = 0 :=
  (by decide +kernel : ∀ t : Fin grid0.N, win0_9.index t (0 : Fin 2) = t.val ∧ win0_9.index t (1 : Fin 2) = 0)
theorem idx_in10 : ∀ t : Fin cfg0.N, win0_10.index t (0 : Fin 2) = t.val ∧ win0_10.index t (1 : Fin 2) = 0 :=
  (by decide +kernel : ∀ t : Fin grid0.N, win0_10.index t (0 : Fin 2) = t.val ∧ win0_10.index t (1 : Fin 2) = 0)
theorem idx_in11 : ∀ t : Fin cfg0.N, win0_11.index t (0 : Fin 2) = t.val ∧ win0_11.index t (1 : Fin 2) = 0 :=
  (by decide +kernel : ∀ t : Fin grid0.N, win0_11.index t (0 : Fin 2) = t.val ∧ win0_11.index t (1 : Fin 2) = 0)
theorem idx_in12 : ∀ t : Fin cfg0.N, win0_12.index t (0 : Fin 2) = t.val ∧ win0_12.index t (1 : Fin 2) = 0 :=
  (by decide +kernel : ∀ t : Fin grid0.N, win0_12.index t (0 : Fin 2) = t.val ∧ win0_12.index t (1 : Fin 2) = 0)
theorem idx_in13 : ∀ t : Fin cfg0.N, win0_13.index t (0 : Fin 2) = t.val ∧ win0_13.index t (1 : Fin 2) = 0 :=
  (by decide +kernel : ∀ t : Fin grid0.N, win0_13.index t (0 : Fin 2) = t.val ∧ win0_13.index t (1 : Fin 2) = 0)
theorem idx_in14 : ∀ t : Fin cfg0.N, win0_14.index t (0 : Fin 2) = t.val ∧ win0_14.index t (1 : Fin 2) = 0 :=
  (by decide +kernel : ∀ t : Fin grid0.N, win0_14.index t (0 : Fin 2) = t.val ∧ win0_14.index t (1 : Fin 2) = 0)
theorem idx_in2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx_in3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx_in15 : ∀ t : Fin cfg0.N, win0_15.index t (0 : Fin 2) = 0 ∧ win0_15.index t (1 : Fin 2) = 0 :=
  (by decide +kernel : ∀ t : Fin grid0.N, win0_15.index t (0 : Fin 2) = 0 ∧ win0_15.index t (1 : Fin 2) = 0)

/-! ## The blocks -/

/-- Input window 0's block at point `t` is rows `128 t … 128 t + 127` of its array. -/
theorem block0 (c : Dev nD) (t : Fin cfg0.N) :
    (iblk m c 0 t : Vec Ideal S128x1024 .f32) = ((batchOf m c).tile (tileNo t)).x := by
  funext j
  unfold iblk
  rw [View.read_apply]
  show V m c main_arg0 _ = m ((c : Thread nD τ).loc main_arg0) _
  rw [V_main_arg0]
  refine congrArg _ (funext fun a => Fin.ext ?_)
  obtain ⟨e0, e1⟩ := idx_in0 t
  match a with
  | ⟨0, _⟩ => show win0_0.index t (0 : Fin 2) * 128 + 1 * (j 0).val = 128 * t.val + (j 0).val; rw [e0]; omega
  | ⟨1, _⟩ => show win0_0.index t (1 : Fin 2) * 1024 + 1 * (j 1).val = (j 1).val; rw [e1]; omega

/-- Input window 1's block at point `t` is rows `128 t … 128 t + 127` of its array. -/
theorem block1 (c : Dev nD) (t : Fin cfg0.N) :
    (iblk m c 1 t : Vec Ideal S128x1024 .f32) = ((batchOf m c).tile (tileNo t)).fb := by
  funext j
  unfold iblk
  rw [View.read_apply]
  show V m c main_arg1 _ = m ((c : Thread nD τ).loc main_arg1) _
  rw [V_main_arg1]
  refine congrArg _ (funext fun a => Fin.ext ?_)
  obtain ⟨e0, e1⟩ := idx_in1 t
  match a with
  | ⟨0, _⟩ => show win0_1.index t (0 : Fin 2) * 128 + 1 * (j 0).val = 128 * t.val + (j 0).val; rw [e0]; omega
  | ⟨1, _⟩ => show win0_1.index t (1 : Fin 2) * 1024 + 1 * (j 1).val = (j 1).val; rw [e1]; omega

/-- Input window 4's block at point `t` is rows `128 t … 128 t + 127` of its array. -/
theorem block4 (c : Dev nD) (t : Fin cfg0.N) :
    (iblk m c 4 t : Vec Ideal S128x1024 .f32) = ((batchOf m c).tile (tileNo t)).vb := by
  funext j
  unfold iblk
  rw [View.read_apply]
  show V m c main_arg4 _ = m ((c : Thread nD τ).loc main_arg4) _
  rw [V_main_arg4]
  refine congrArg _ (funext fun a => Fin.ext ?_)
  obtain ⟨e0, e1⟩ := idx_in4 t
  match a with
  | ⟨0, _⟩ => show win0_4.index t (0 : Fin 2) * 128 + 1 * (j 0).val = 128 * t.val + (j 0).val; rw [e0]; omega
  | ⟨1, _⟩ => show win0_4.index t (1 : Fin 2) * 1024 + 1 * (j 1).val = (j 1).val; rw [e1]; omega

/-- Input window 5's block at point `t` is rows `128 t … 128 t + 127` of its array. -/
theorem block5 (c : Dev nD) (t : Fin cfg0.N) :
    (iblk m c 5 t : Vec Ideal S128x1024 .f32) = ((batchOf m c).tile (tileNo t)).va := by
  funext j
  unfold iblk
  rw [View.read_apply]
  show V m c main_arg5 _ = m ((c : Thread nD τ).loc main_arg5) _
  rw [V_main_arg5]
  refine congrArg _ (funext fun a => Fin.ext ?_)
  obtain ⟨e0, e1⟩ := idx_in5 t
  match a with
  | ⟨0, _⟩ => show win0_5.index t (0 : Fin 2) * 128 + 1 * (j 0).val = 128 * t.val + (j 0).val; rw [e0]; omega
  | ⟨1, _⟩ => show win0_5.index t (1 : Fin 2) * 1024 + 1 * (j 1).val = (j 1).val; rw [e1]; omega

/-- Input window 6's block at point `t` is rows `128 t … 128 t + 127` of its array. -/
theorem block6 (c : Dev nD) (t : Fin cfg0.N) :
    (iblk m c 6 t : Vec Ideal S128x1024 .f32) = ((batchOf m c).tile (tileNo t)).vs := by
  funext j
  unfold iblk
  rw [View.read_apply]
  show V m c main_arg6 _ = m ((c : Thread nD τ).loc main_arg6) _
  rw [V_main_arg6]
  refine congrArg _ (funext fun a => Fin.ext ?_)
  obtain ⟨e0, e1⟩ := idx_in6 t
  match a with
  | ⟨0, _⟩ => show win0_6.index t (0 : Fin 2) * 128 + 1 * (j 0).val = 128 * t.val + (j 0).val; rw [e0]; omega
  | ⟨1, _⟩ => show win0_6.index t (1 : Fin 2) * 1024 + 1 * (j 1).val = (j 1).val; rw [e1]; omega

/-- Input window 7's block at point `t` is rows `128 t … 128 t + 127` of its array. -/
theorem block7 (c : Dev nD) (t : Fin cfg0.N) :
    (iblk m c 7 t : Vec Ideal S128x1024 .f32) = ((batchOf m c).tile (tileNo t)).rbar := by
  funext j
  unfold iblk
  rw [View.read_apply]
  show V m c main_arg7 _ = m ((c : Thread nD τ).loc main_arg7) _
  rw [V_main_arg7]
  refine congrArg _ (funext fun a => Fin.ext ?_)
  obtain ⟨e0, e1⟩ := idx_in7 t
  match a with
  | ⟨0, _⟩ => show win0_7.index t (0 : Fin 2) * 128 + 1 * (j 0).val = 128 * t.val + (j 0).val; rw [e0]; omega
  | ⟨1, _⟩ => show win0_7.index t (1 : Fin 2) * 1024 + 1 * (j 1).val = (j 1).val; rw [e1]; omega

/-- Input window 8's block at point `t` is rows `128 t … 128 t + 127` of its array. -/
theorem block8 (c : Dev nD) (t : Fin cfg0.N) :
    (iblk m c 8 t : Vec Ideal S128x1024 .f32) = ((batchOf m c).tile (tileNo t)).ebar := by
  funext j
  unfold iblk
  rw [View.read_apply]
  show V m c main_arg8 _ = m ((c : Thread nD τ).loc main_arg8) _
  rw [V_main_arg8]
  refine congrArg _ (funext fun a => Fin.ext ?_)
  obtain ⟨e0, e1⟩ := idx_in8 t
  match a with
  | ⟨0, _⟩ => show win0_8.index t (0 : Fin 2) * 128 + 1 * (j 0).val = 128 * t.val + (j 0).val; rw [e0]; omega
  | ⟨1, _⟩ => show win0_8.index t (1 : Fin 2) * 1024 + 1 * (j 1).val = (j 1).val; rw [e1]; omega

/-- Input window 2's block is the feed-forward weight matrix, whole, at every point. -/
theorem block2 (c : Dev nD) (t : Fin cfg0.N) :
    (iblk m c 2 t : Vec Ideal S1024x1024 .f32) = ((batchOf m c).tile (tileNo t)).Wff := by
  funext j
  unfold iblk
  rw [View.read_apply]
  show V m c main_arg2 _ = m ((c : Thread nD τ).loc main_arg2) _
  rw [V_main_arg2]
  refine congrArg _ (funext fun a => Fin.ext ?_)
  obtain ⟨e0, e1⟩ := idx_in2 t
  match a with
  | ⟨0, _⟩ => show win0_2.index t (0 : Fin 2) * 1024 + 1 * (j 0).val = (j 0).val; rw [e0]; omega
  | ⟨1, _⟩ => show win0_2.index t (1 : Fin 2) * 1024 + 1 * (j 1).val = (j 1).val; rw [e1]; omega

/-- The array window 3 stages is the host's copy of the feedback weights in another float format: the same numbers. -/
theorem copy_of_Wfb (c : Dev nD) :
    (V m c main_v0 : S1024x1024.Idx → EReal) = m ((c : Thread nD τ).loc main_arg3) := by
  dsimp only [V, hostOps0]
  after_results
  rfl

/-- Input window 3's block is the feedback weight matrix, whole, at every point. -/
theorem block3 (c : Dev nD) (t : Fin cfg0.N) :
    (iblk m c 3 t : Vec Ideal S1024x1024 .bf16) = ((batchOf m c).tile (tileNo t)).Wfb := by
  funext j
  unfold iblk
  rw [View.read_apply]
  show (V m c main_v0 : S1024x1024.Idx → EReal) _ = m ((c : Thread nD τ).loc main_arg3) _
  rw [copy_of_Wfb]
  refine congrArg _ (funext fun a => Fin.ext ?_)
  obtain ⟨e0, e1⟩ := idx_in3 t
  match a with
  | ⟨0, _⟩ => show win0_3.index t (0 : Fin 2) * 1024 + 1 * (j 0).val = (j 0).val; rw [e0]; omega
  | ⟨1, _⟩ => show win0_3.index t (1 : Fin 2) * 1024 + 1 * (j 1).val = (j 1).val; rw [e1]; omega

/-- The nine blocks the body loads at point `t` are tile `t` of the batch. -/
theorem tile_eq (c : Dev nD) (t : Fin cfg0.N) :
    ofBlocks (iblk m c 0 t) (iblk m c 1 t) (iblk m c 2 t) (iblk m c 3 t) (iblk m c 4 t) (iblk m c 5 t) (iblk m c 6 t)
        (iblk m c 7 t) (iblk m c 8 t)
      = (batchOf m c).tile (tileNo t) :=
  Ins.ext (block0 m c t) (block1 m c t) (block2 m c t) (block3 m c t) (block4 m c t) (block5 m c t) (block6 m c t)
    (block7 m c t) (block8 m c t)

end Cert.TwoComp

end
-- ==== Proof.Pieces.lean ====
/- What one run of the kernel body leaves behind, as values.

  The body is run in three situations: at the first grid point (the accumulator is reset first), at a middle point,
  and at the last point (the new weights are stored too). In each, every staging buffer of a per-row result is covered
  by one store of the whole tile, so it ends holding that store's value: the body's arithmetic applied to the tile's
  loaded input blocks. The accumulator ends at its update; at the first point that update reads the zero array just
  stored, elsewhere what the point before left.
-/
import proofs.«159914_j9990093930915_1_alg».proof.Proof.FrameKI
import Idealize.ShloMosaic.Lib.Pipeline.Value
import Idealize.ShloMosaic.Lib.Tactic

noncomputable section

namespace Cert.TwoComp.Pieces

open Cert.KernelIdeal Cert.KernelIdeal.Gen Cert.KernelIdeal.GenP Idealize.ShloMosaic Idealize.ShloMosaic.TcCoe Idealize.SL.Sem
open Idealize.ShloMosaic.Tactic

variable {F : FTy → Type} [FloatOps F]

/-- Every store and load of the body is at offset (0, 0) of its buffer. -/
theorem hz : (![0, 0] : Fin 2 → Nat) = fun _ => 0 := funext fun a => by fin_cases a <;> rfl

variable (c : Dev nD) (i : grid0.Coords)
  (arg1 : Memref sig .tc .vmem S128x1024 .f32) (harg1 : arg1.IsWhole)
  (arg2 : Memref sig .tc .vmem S128x1024 .f32) (harg2 : arg2.IsWhole)
  (arg3 : Memref sig .tc .vmem S1024x1024 .f32) (harg3 : arg3.IsWhole)
  (arg4 : Memref sig .tc .vmem S1024x1024 .bf16) (harg4 : arg4.IsWhole)
  (arg5 : Memref sig .tc .vmem S128x1024 .f32) (harg5 : arg5.IsWhole)
  (arg6 : Memref sig .tc .vmem S128x1024 .f32) (harg6 : arg6.IsWhole)
  (arg7 : Memref sig .tc .vmem S128x1024 .f32) (harg7 : arg7.IsWhole)
  (arg8 : Memref sig .tc .vmem S128x1024 .f32) (harg8 : arg8.IsWhole)
  (arg9 : Memref sig .tc .vmem S128x1024 .f32) (harg9 : arg9.IsWhole)
  (arg10 : Memref sig .tc .vmem S128x1024 .f32) (harg10 : arg10.IsWhole)
  (arg11 : Memref sig .tc .vmem S128x1024 .f32) (harg11 : arg11.IsWhole)
  (arg12 : Memref sig .tc .vmem S128x1024 .f32) (harg12 : arg12.IsWhole)
  (arg13 : Memref sig .tc .vmem S128x1024 .f32) (harg13 : arg13.IsWhole)
  (arg14 : Memref sig .tc .vmem S128x1024 .f32) (harg14 : arg14.IsWhole)
  (arg15 : Memref sig .tc .vmem S128x1024 .f32) (harg15 : arg15.IsWhole)
  (arg16 : Memref sig .tc .vmem S1024x1024 .f32) (harg16 : arg16.IsWhole)
  (arg17 : Memref sig .tc .vmem S1024x1024 .f32) (harg17 : arg17.IsWhole)
  (x0 x1 : Vec F S128x1024 .f32) (x2 : Vec F S1024x1024 .f32) (x3 : Vec F S1024x1024 .bf16)
  (x4 x5 x6 x7 x8 : Vec F S128x1024 .f32) (xs0 : Vec F S1024x1024 .f32)

/-! ## What the body leaves at the first grid point -/

/-- At the first grid point the body leaves the spikes of the tile in its staging buffer: the one store that covers the buffer. -/
theorem spikes_A (hc0 : cond0_0 i) (hc1 : ¬cond0_1 i) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 = k0_pay8 (k0_pay5 x6) (k0_pay6 x0 x1 x2 x3 x4 x5) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg17.read_unread, View.ld_unit_zero (S := S128x1024) hz, View.ld_unit_zero (S := S1024x1024) hz]

/-- At the first grid point the body leaves the new basal voltage of the tile in its staging buffer: the one store that covers the buffer. -/
theorem basal_A (hc0 : cond0_0 i) (hc1 : ¬cond0_1 i) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 = k0_pay3 x0 x2 x4 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg17.read_unread, View.ld_unit_zero (S := S128x1024) hz, View.ld_unit_zero (S := S1024x1024) hz]

/-- At the first grid point the body leaves the new apical voltage of the tile in its staging buffer: the one store that covers the buffer. -/
theorem apical_A (hc0 : cond0_0 i) (hc1 : ¬cond0_1 i) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 = k0_pay4 x1 x3 x5 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg17.read_unread, View.ld_unit_zero (S := S128x1024) hz, View.ld_unit_zero (S := S1024x1024) hz]

/-- At the first grid point the body leaves the new somatic voltage of the tile in its staging buffer: the one store that covers the buffer. -/
theorem soma_A (hc0 : cond0_0 i) (hc1 : ¬cond0_1 i) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 = k0_pay7 (k0_pay5 x6) (k0_pay6 x0 x1 x2 x3 x4 x5) := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg17.read_unread, View.ld_unit_zero (S := S128x1024) hz, View.ld_unit_zero (S := S1024x1024) hz]

/-- At the first grid point the body leaves the new presynaptic trace of the tile in its staging buffer: the one store that covers the buffer. -/
theorem preTrace_A (hc0 : cond0_0 i) (hc1 : ¬cond0_1 i) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 = k0_pay9 x0 x7 := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg17.read_unread, View.ld_unit_zero (S := S128x1024) hz, View.ld_unit_zero (S := S1024x1024) hz]

/-- At the first grid point the body leaves the new postsynaptic trace of the tile in its staging buffer: the one store that covers the buffer. -/
theorem postTrace_A (hc0 : cond0_0 i) (hc1 : ¬cond0_1 i) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 = k0_pay10 x8 (k0_pay3 x0 x2 x4) (k0_pay5 x6) (k0_pay6 x0 x1 x2 x3 x4 x5) := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg17.read_unread, View.ld_unit_zero (S := S128x1024) hz, View.ld_unit_zero (S := S1024x1024) hz]

/-! ## What the body leaves at a middle grid point -/

/-- At a middle grid point the body leaves the spikes of the tile in its staging buffer: the one store that covers the buffer. -/
theorem spikes_B (hc0 : ¬cond0_0 i) (hc1 : ¬cond0_1 i) :
    out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0 = k0_pay8 (k0_pay5 x6) (k0_pay6 x0 x1 x2 x3 x4 x5) := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg17.read_unread, View.ld_unit_zero (S := S128x1024) hz, View.ld_unit_zero (S := S1024x1024) hz]

/-- At a middle grid point the body leaves the new basal voltage of the tile in its staging buffer: the one store that covers the buffer. -/
theorem basal_B (hc0 : ¬cond0_0 i) (hc1 : ¬cond0_1 i) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0 = k0_pay3 x0 x2 x4 := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg17.read_unread, View.ld_unit_zero (S := S128x1024) hz, View.ld_unit_zero (S := S1024x1024) hz]

/-- At a middle grid point the body leaves the new apical voltage of the tile in its staging buffer: the one store that covers the buffer. -/
theorem apical_B (hc0 : ¬cond0_0 i) (hc1 : ¬cond0_1 i) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0 = k0_pay4 x1 x3 x5 := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg17.read_unread, View.ld_unit_zero (S := S128x1024) hz, View.ld_unit_zero (S := S1024x1024) hz]

/-- At a middle grid point the body leaves the new somatic voltage of the tile in its staging buffer: the one store that covers the buffer. -/
theorem soma_B (hc0 : ¬cond0_0 i) (hc1 : ¬cond0_1 i) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0 = k0_pay7 (k0_pay5 x6) (k0_pay6 x0 x1 x2 x3 x4 x5) := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg17.read_unread, View.ld_unit_zero (S := S128x1024) hz, View.ld_unit_zero (S := S1024x1024) hz]

/-- At a middle grid point the body leaves the new presynaptic trace of the tile in its staging buffer: the one store that covers the buffer. -/
theorem preTrace_B (hc0 : ¬cond0_0 i) (hc1 : ¬cond0_1 i) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0 = k0_pay9 x0 x7 := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg17.read_unread, View.ld_unit_zero (S := S128x1024) hz, View.ld_unit_zero (S := S1024x1024) hz]

/-- At a middle grid point the body leaves the new postsynaptic trace of the tile in its staging buffer: the one store that covers the buffer. -/
theorem postTrace_B (hc0 : ¬cond0_0 i) (hc1 : ¬cond0_1 i) :
    out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0 = k0_pay10 x8 (k0_pay3 x0 x2 x4) (k0_pay5 x6) (k0_pay6 x0 x1 x2 x3 x4 x5) := by
  unfold out0_B_14
  rw [View.read_writes_eq_canon _ _ _ (cover0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg17.read_unread, View.ld_unit_zero (S := S128x1024) hz, View.ld_unit_zero (S := S1024x1024) hz]

/-! ## What the body leaves at the last grid point -/

/-- At the last grid point the body leaves the spikes of the tile in its staging buffer: the one store that covers the buffer. -/
theorem spikes_C (hc0 : ¬cond0_0 i) (hc1 : cond0_1 i) :
    out0_C_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0 = k0_pay8 (k0_pay5 x6) (k0_pay6 x0 x1 x2 x3 x4 x5) := by
  unfold out0_C_9
  rw [View.read_writes_eq_canon _ _ _ (cover0_C_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg17.read_unread, View.ld_unit_zero (S := S128x1024) hz, View.ld_unit_zero (S := S1024x1024) hz]

/-- At the last grid point the body leaves the new basal voltage of the tile in its staging buffer: the one store that covers the buffer. -/
theorem basal_C (hc0 : ¬cond0_0 i) (hc1 : cond0_1 i) :
    out0_C_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0 = k0_pay3 x0 x2 x4 := by
  unfold out0_C_10
  rw [View.read_writes_eq_canon _ _ _ (cover0_C_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg17.read_unread, View.ld_unit_zero (S := S128x1024) hz, View.ld_unit_zero (S := S1024x1024) hz]

/-- At the last grid point the body leaves the new apical voltage of the tile in its staging buffer: the one store that covers the buffer. -/
theorem apical_C (hc0 : ¬cond0_0 i) (hc1 : cond0_1 i) :
    out0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0 = k0_pay4 x1 x3 x5 := by
  unfold out0_C_11
  rw [View.read_writes_eq_canon _ _ _ (cover0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg17.read_unread, View.ld_unit_zero (S := S128x1024) hz, View.ld_unit_zero (S := S1024x1024) hz]

/-- At the last grid point the body leaves the new somatic voltage of the tile in its staging buffer: the one store that covers the buffer. -/
theorem soma_C (hc0 : ¬cond0_0 i) (hc1 : cond0_1 i) :
    out0_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0 = k0_pay7 (k0_pay5 x6) (k0_pay6 x0 x1 x2 x3 x4 x5) := by
  unfold out0_C_12
  rw [View.read_writes_eq_canon _ _ _ (cover0_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg17.read_unread, View.ld_unit_zero (S := S128x1024) hz, View.ld_unit_zero (S := S1024x1024) hz]

/-- At the last grid point the body leaves the new presynaptic trace of the tile in its staging buffer: the one store that covers the buffer. -/
theorem preTrace_C (hc0 : ¬cond0_0 i) (hc1 : cond0_1 i) :
    out0_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0 = k0_pay9 x0 x7 := by
  unfold out0_C_13
  rw [View.read_writes_eq_canon _ _ _ (cover0_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg17.read_unread, View.ld_unit_zero (S := S128x1024) hz, View.ld_unit_zero (S := S1024x1024) hz]

/-- At the last grid point the body leaves the new postsynaptic trace of the tile in its staging buffer: the one store that covers the buffer. -/
theorem postTrace_C (hc0 : ¬cond0_0 i) (hc1 : cond0_1 i) :
    out0_C_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0 = k0_pay10 x8 (k0_pay3 x0 x2 x4) (k0_pay5 x6) (k0_pay6 x0 x1 x2 x3 x4 x5) := by
  unfold out0_C_14
  rw [View.read_writes_eq_canon _ _ _ (cover0_C_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg17.read_unread, View.ld_unit_zero (S := S128x1024) hz, View.ld_unit_zero (S := S1024x1024) hz]

/-! ## The accumulator and the new weights -/

/-- At the first grid point the accumulator is reset to zero and then updated: it ends at the update of the zero array. -/
theorem acc_A (hc0 : cond0_0 i) (hc1 : ¬cond0_1 i) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 = k0_pay11 x0 x7 x8 (k0_pay3 x0 x2 x4) (k0_pay5 x6) (k0_pay6 x0 x1 x2 x3 x4 x5) k0_pay2 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8)]
  unfold kernelRun0_A
  dsimp only
  sl_unfold_words
  rw [View.canon_cons_unit_zero (S := S1024x1024) hz, View.readCov_unit_zero (S := S1024x1024) _ hz]
  simp only [View.readAt_eq_ld, harg1.read_unread, harg2.read_unread, harg3.read_unread, harg4.read_unread, harg5.read_unread, harg6.read_unread, harg7.read_unread, harg8.read_unread, harg9.read_unread, harg17.read_unread, View.ld_unit_zero (S := S128x1024) hz, View.ld_unit_zero (S := S1024x1024) hz]

/-- At a middle grid point the accumulator ends at the update of what the point before left in it. -/
theorem acc_B (hc0 : ¬cond0_0 i) (hc1 : ¬cond0_1 i) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0 = k0_pay11 x0 x7 x8 (k0_pay3 x0 x2 x4) (k0_pay5 x6) (k0_pay6 x0 x1 x2 x3 x4 x5) xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg17.read_unread, View.ld_unit_zero (S := S128x1024) hz, View.ld_unit_zero (S := S1024x1024) hz]

/-- At the last grid point too. -/
theorem acc_C (hc0 : ¬cond0_0 i) (hc1 : cond0_1 i) :
    sout0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0 = k0_pay11 x0 x7 x8 (k0_pay3 x0 x2 x4) (k0_pay5 x6) (k0_pay6 x0 x1 x2 x3 x4 x5) xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg17.read_unread, View.ld_unit_zero (S := S128x1024) hz, View.ld_unit_zero (S := S1024x1024) hz]

/-- At the last grid point the body stores the new weights, computed from the old weights and the updated accumulator. -/
theorem weight_C (hc0 : ¬cond0_0 i) (hc1 : cond0_1 i) :
    out0_C_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0 = k0_pay1 x2 (k0_pay11 x0 x7 x8 (k0_pay3 x0 x2 x4) (k0_pay5 x6) (k0_pay6 x0 x1 x2 x3 x4 x5) xs0) := by
  unfold out0_C_15
  rw [View.read_writes_eq_canon _ _ _ (cover0_C_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg17.read_unread, View.ld_unit_zero (S := S128x1024) hz, View.ld_unit_zero (S := S1024x1024) hz, View.readCov_unit_zero (S := S1024x1024) _ hz]

end Cert.TwoComp.Pieces

end
-- ==== Proof.Windows.lean ====
/- The six per-row results of the kernel, as whole arrays.

  Each of these results is written back at every grid point: point `t` writes rows `128 t … 128 t + 127`. What it
  writes is the body's stored value for the tile, which is the specification's function of tile `t` of the batch, and
  a tile computes what the batch computes on its rows; so point `t` writes its block of ONE array, the specification's
  function of the whole batch. The 64 blocks cover the array (row `r` is in block `r / 128`), so that is what the array
  ends holding.
-/
import proofs.«159914_j9990093930915_1_alg».proof.Proof.Tiles
import proofs.«159914_j9990093930915_1_alg».proof.Proof.Pieces

noncomputable section

namespace Cert.TwoComp

open Cert.KernelIdeal Cert.KernelIdeal.Gen Cert.KernelIdeal.GenP Cert.KernelIdeal.ValueP
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! ## Window 9: the spikes -/

/-- The stored value of the tile at point `t`, read through the window's block, is block `t` of the batch's array. -/
theorem cut9 (c : Dev nD) (t : Fin cfg0.N) :
    (cfg0.win 9).cut (grid0.coords t) (k0_pay8 (F := Ideal) (k0_pay5 (iblk m c 6 t)) (k0_pay6 (iblk m c 0 t) (iblk m c 1 t) (iblk m c 2 t) (iblk m c 3 t) (iblk m c 4 t) (iblk m c 5 t)))
      = ((cfg0.win 9).blk t).view.read (Elt Ideal) (spikeA (batchOf m c)) := by
  funext j
  obtain ⟨p, q, rfl⟩ : ∃ (p : Fin 128) (q : Fin 1024), j = ix2 p q := ⟨j 0, j 1, eq_ix2 j⟩
  have he : ((cfg0.win 9).blk t).view.emb (ix2 p q) = ix2 (rowOf (tileNo t) p) q := by
    obtain ⟨e0, e1⟩ := idx_in9 t
    funext a; apply Fin.ext
    match a with
    | ⟨0, _⟩ => show win0_9.index t (0 : Fin 2) * 128 + 1 * p.val = 128 * t.val + p.val; rw [e0]; omega
    | ⟨1, _⟩ => show win0_9.index t (1 : Fin 2) * 1024 + 1 * q.val = q.val; rw [e1]; omega
  show (k0_pay8 (F := Ideal) (k0_pay5 (iblk m c 6 t)) (k0_pay6 (iblk m c 0 t) (iblk m c 1 t) (iblk m c 2 t) (iblk m c 3 t) (iblk m c 4 t) (iblk m c 5 t))) (ix2 p q) = spikeA (batchOf m c) (((cfg0.win 9).blk t).view.emb (ix2 p q))
  rw [he]
  refine (spike_stored (iblk m c 0 t) (iblk m c 1 t) (iblk m c 2 t) (iblk m c 3 t) (iblk m c 4 t) (iblk m c 5 t) (iblk m c 6 t) (iblk m c 7 t) (iblk m c 8 t) p q).trans ?_
  rw [tile_eq m c t]
  rfl

/-- What point `t` writes back is block `t` of the batch's array, whichever of the three situations the point is in. -/
theorem flushed9_eq (c : Dev nD) (t : Fin cfg0.N) :
    (dats m 0 c).flushed 9 t = ((cfg0.win 9).blk t).view.read (Elt Ideal) (spikeA (batchOf m c)) := by
  have hN : t.val < 64 := lt_of_lt_of_eq t.isLt N_0
  by_cases h0 : t.val % 64 = 0
  · have h1 : ¬t.val % 64 = 63 := by omega
    rw [flushed9_A m c t h0 h1]
    exact (congrArg ((cfg0.win 9).cut (grid0.coords t)) (Pieces.spikes_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 0 t) (iblk m c 1 t) (iblk m c 2 t) (iblk m c 3 t) (iblk m c 4 t) (iblk m c 5 t) (iblk m c 6 t) (iblk m c 7 t) (iblk m c 8 t)
      ((hcond0_0 t).mpr h0) (fun h => h1 ((hcond0_1 t).mp h)))).trans (cut9 m c t)
  · by_cases h1 : t.val % 64 = 63
    · rw [flushed9_C m c t h0 h1]
      exact (congrArg ((cfg0.win 9).cut (grid0.coords t)) (Pieces.spikes_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 0 t) (iblk m c 1 t) (iblk m c 2 t) (iblk m c 3 t) (iblk m c 4 t) (iblk m c 5 t) (iblk m c 6 t) (iblk m c 7 t) (iblk m c 8 t)
        (outsAt0 m c (t.val - 1) (Nat.lt_of_le_of_lt (Nat.sub_le _ _) t.isLt)).2.2.2.2.2.2.2 (fun h => h0 ((hcond0_0 t).mp h)) ((hcond0_1 t).mpr h1))).trans (cut9 m c t)
    · rw [flushed9_B m c t h0 h1]
      exact (congrArg ((cfg0.win 9).cut (grid0.coords t)) (Pieces.spikes_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 0 t) (iblk m c 1 t) (iblk m c 2 t) (iblk m c 3 t) (iblk m c 4 t) (iblk m c 5 t) (iblk m c 6 t) (iblk m c 7 t) (iblk m c 8 t)
        (outsAt0 m c (t.val - 1) (Nat.lt_of_le_of_lt (Nat.sub_le _ _) t.isLt)).2.2.2.2.2.2.2 (fun h => h0 ((hcond0_0 t).mp h)) (fun h => h1 ((hcond0_1 t).mp h)))).trans (cut9 m c t)

/-- An index of the array is in point `t`'s block iff each coordinate is in the block's range on its axis. -/
theorem mem_blk9 (t : Fin cfg0.N) (i : S8192x1024.Idx) :
    i ∈ ((cfg0.win 9).blk t).view.set ↔ ∀ a : Fin 2, win0_9.index t a * S128x1024.size a ≤ (i a).val
      ∧ (i a).val < win0_9.index t a * S128x1024.size a + S128x1024.size a := by
  show i ∈ ((View.whole main_v1_0).slice (win0_9.rect t)).set ↔ _
  rw [View.set_slice_whole, Rect.mem_set_unit]
  exact Iff.rfl

/-- Row `r` of the array is in the block of point `r / 128`. -/
theorem cover9 (i : S8192x1024.Idx) :
    ∃ t : Fin cfg0.N, (cfg0.win 9).flush t = true ∧ i ∈ ((cfg0.win 9).blk t).view.set := by
  have hi0 : (i 0).val < 8192 := (i 0).isLt
  have hi1 : (i 1).val < 1024 := (i 1).isLt
  have ht : (i 0).val / 128 < cfg0.N := by rw [show cfg0.N = 64 from N_0]; omega
  refine ⟨⟨(i 0).val / 128, ht⟩, flush0_9 _, ?_⟩
  rw [mem_blk9]
  obtain ⟨e0, e1⟩ := idx_in9 ⟨(i 0).val / 128, ht⟩
  intro a
  match a with
  | ⟨0, _⟩ =>
    show win0_9.index ⟨(i 0).val / 128, ht⟩ (0 : Fin 2) * 128 ≤ (i 0).val
      ∧ (i 0).val < win0_9.index ⟨(i 0).val / 128, ht⟩ (0 : Fin 2) * 128 + 128
    rw [e0]; show (i 0).val / 128 * 128 ≤ (i 0).val ∧ (i 0).val < (i 0).val / 128 * 128 + 128; omega
  | ⟨1, _⟩ =>
    show win0_9.index ⟨(i 0).val / 128, ht⟩ (1 : Fin 2) * 1024 ≤ (i 1).val
      ∧ (i 1).val < win0_9.index ⟨(i 0).val / 128, ht⟩ (1 : Fin 2) * 1024 + 1024
    rw [e1]; omega

/-- The array ends holding the spikes of the whole batch. -/
theorem final9 (c : Dev nD) : (dats m 0 c).arrAt 9 cfg0.N = spikeA (batchOf m c) :=
  (dats m 0 c).arrAt_eq_of_cover 9 _ (fun t _ => flushed9_eq m c t) cover9

/-! ## Window 10: the new basal voltage -/

/-- The stored value of the tile at point `t`, read through the window's block, is block `t` of the batch's array. -/
theorem cut10 (c : Dev nD) (t : Fin cfg0.N) :
    (cfg0.win 10).cut (grid0.coords t) (k0_pay3 (F := Ideal) (iblk m c 0 t) (iblk m c 2 t) (iblk m c 4 t))
      = ((cfg0.win 10).blk t).view.read (Elt Ideal) (basalA (batchOf m c)) := by
  funext j
  obtain ⟨p, q, rfl⟩ : ∃ (p : Fin 128) (q : Fin 1024), j = ix2 p q := ⟨j 0, j 1, eq_ix2 j⟩
  have he : ((cfg0.win 10).blk t).view.emb (ix2 p q) = ix2 (rowOf (tileNo t) p) q := by
    obtain ⟨e0, e1⟩ := idx_in10 t
    funext a; apply Fin.ext
    match a with
    | ⟨0, _⟩ => show win0_10.index t (0 : Fin 2) * 128 + 1 * p.val = 128 * t.val + p.val; rw [e0]; omega
    | ⟨1, _⟩ => show win0_10.index t (1 : Fin 2) * 1024 + 1 * q.val = q.val; rw [e1]; omega
  show (k0_pay3 (F := Ideal) (iblk m c 0 t) (iblk m c 2 t) (iblk m c 4 t)) (ix2 p q) = basalA (batchOf m c) (((cfg0.win 10).blk t).view.emb (ix2 p q))
  rw [he]
  refine (basal_stored (iblk m c 0 t) (iblk m c 1 t) (iblk m c 2 t) (iblk m c 3 t) (iblk m c 4 t) (iblk m c 5 t) (iblk m c 6 t) (iblk m c 7 t) (iblk m c 8 t) p q).trans ?_
  rw [tile_eq m c t]
  rfl

/-- What point `t` writes back is block `t` of the batch's array, whichever of the three situations the point is in. -/
theorem flushed10_eq (c : Dev nD) (t : Fin cfg0.N) :
    (dats m 0 c).flushed 10 t = ((cfg0.win 10).blk t).view.read (Elt Ideal) (basalA (batchOf m c)) := by
  have hN : t.val < 64 := lt_of_lt_of_eq t.isLt N_0
  by_cases h0 : t.val % 64 = 0
  · have h1 : ¬t.val % 64 = 63 := by omega
    rw [flushed10_A m c t h0 h1]
    exact (congrArg ((cfg0.win 10).cut (grid0.coords t)) (Pieces.basal_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 0 t) (iblk m c 1 t) (iblk m c 2 t) (iblk m c 3 t) (iblk m c 4 t) (iblk m c 5 t) (iblk m c 6 t) (iblk m c 7 t) (iblk m c 8 t)
      ((hcond0_0 t).mpr h0) (fun h => h1 ((hcond0_1 t).mp h)))).trans (cut10 m c t)
  · by_cases h1 : t.val % 64 = 63
    · rw [flushed10_C m c t h0 h1]
      exact (congrArg ((cfg0.win 10).cut (grid0.coords t)) (Pieces.basal_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 0 t) (iblk m c 1 t) (iblk m c 2 t) (iblk m c 3 t) (iblk m c 4 t) (iblk m c 5 t) (iblk m c 6 t) (iblk m c 7 t) (iblk m c 8 t)
        (outsAt0 m c (t.val - 1) (Nat.lt_of_le_of_lt (Nat.sub_le _ _) t.isLt)).2.2.2.2.2.2.2 (fun h => h0 ((hcond0_0 t).mp h)) ((hcond0_1 t).mpr h1))).trans (cut10 m c t)
    · rw [flushed10_B m c t h0 h1]
      exact (congrArg ((cfg0.win 10).cut (grid0.coords t)) (Pieces.basal_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 0 t) (iblk m c 1 t) (iblk m c 2 t) (iblk m c 3 t) (iblk m c 4 t) (iblk m c 5 t) (iblk m c 6 t) (iblk m c 7 t) (iblk m c 8 t)
        (outsAt0 m c (t.val - 1) (Nat.lt_of_le_of_lt (Nat.sub_le _ _) t.isLt)).2.2.2.2.2.2.2 (fun h => h0 ((hcond0_0 t).mp h)) (fun h => h1 ((hcond0_1 t).mp h)))).trans (cut10 m c t)

/-- An index of the array is in point `t`'s block iff each coordinate is in the block's range on its axis. -/
theorem mem_blk10 (t : Fin cfg0.N) (i : S8192x1024.Idx) :
    i ∈ ((cfg0.win 10).blk t).view.set ↔ ∀ a : Fin 2, win0_10.index t a * S128x1024.size a ≤ (i a).val
      ∧ (i a).val < win0_10.index t a * S128x1024.size a + S128x1024.size a := by
  show i ∈ ((View.whole main_v1_1).slice (win0_10.rect t)).set ↔ _
  rw [View.set_slice_whole, Rect.mem_set_unit]
  exact Iff.rfl

/-- Row `r` of the array is in the block of point `r / 128`. -/
theorem cover10 (i : S8192x1024.Idx) :
    ∃ t : Fin cfg0.N, (cfg0.win 10).flush t = true ∧ i ∈ ((cfg0.win 10).blk t).view.set := by
  have hi0 : (i 0).val < 8192 := (i 0).isLt
  have hi1 : (i 1).val < 1024 := (i 1).isLt
  have ht : (i 0).val / 128 < cfg0.N := by rw [show cfg0.N = 64 from N_0]; omega
  refine ⟨⟨(i 0).val / 128, ht⟩, flush0_10 _, ?_⟩
  rw [mem_blk10]
  obtain ⟨e0, e1⟩ := idx_in10 ⟨(i 0).val / 128, ht⟩
  intro a
  match a with
  | ⟨0, _⟩ =>
    show win0_10.index ⟨(i 0).val / 128, ht⟩ (0 : Fin 2) * 128 ≤ (i 0).val
      ∧ (i 0).val < win0_10.index ⟨(i 0).val / 128, ht⟩ (0 : Fin 2) * 128 + 128
    rw [e0]; show (i 0).val / 128 * 128 ≤ (i 0).val ∧ (i 0).val < (i 0).val / 128 * 128 + 128; omega
  | ⟨1, _⟩ =>
    show win0_10.index ⟨(i 0).val / 128, ht⟩ (1 : Fin 2) * 1024 ≤ (i 1).val
      ∧ (i 1).val < win0_10.index ⟨(i 0).val / 128, ht⟩ (1 : Fin 2) * 1024 + 1024
    rw [e1]; omega

/-- The array ends holding the new basal voltage of the whole batch. -/
theorem final10 (c : Dev nD) : (dats m 0 c).arrAt 10 cfg0.N = basalA (batchOf m c) :=
  (dats m 0 c).arrAt_eq_of_cover 10 _ (fun t _ => flushed10_eq m c t) cover10

/-! ## Window 11: the new apical voltage -/

/-- The stored value of the tile at point `t`, read through the window's block, is block `t` of the batch's array. -/
theorem cut11 (c : Dev nD) (t : Fin cfg0.N) :
    (cfg0.win 11).cut (grid0.coords t) (k0_pay4 (F := Ideal) (iblk m c 1 t) (iblk m c 3 t) (iblk m c 5 t))
      = ((cfg0.win 11).blk t).view.read (Elt Ideal) (apicalA (batchOf m c)) := by
  funext j
  obtain ⟨p, q, rfl⟩ : ∃ (p : Fin 128) (q : Fin 1024), j = ix2 p q := ⟨j 0, j 1, eq_ix2 j⟩
  have he : ((cfg0.win 11).blk t).view.emb (ix2 p q) = ix2 (rowOf (tileNo t) p) q := by
    obtain ⟨e0, e1⟩ := idx_in11 t
    funext a; apply Fin.ext
    match a with
    | ⟨0, _⟩ => show win0_11.index t (0 : Fin 2) * 128 + 1 * p.val = 128 * t.val + p.val; rw [e0]; omega
    | ⟨1, _⟩ => show win0_11.index t (1 : Fin 2) * 1024 + 1 * q.val = q.val; rw [e1]; omega
  show (k0_pay4 (F := Ideal) (iblk m c 1 t) (iblk m c 3 t) (iblk m c 5 t)) (ix2 p q) = apicalA (batchOf m c) (((cfg0.win 11).blk t).view.emb (ix2 p q))
  rw [he]
  refine (apical_stored (iblk m c 0 t) (iblk m c 1 t) (iblk m c 2 t) (iblk m c 3 t) (iblk m c 4 t) (iblk m c 5 t) (iblk m c 6 t) (iblk m c 7 t) (iblk m c 8 t) p q).trans ?_
  rw [tile_eq m c t]
  rfl

/-- What point `t` writes back is block `t` of the batch's array, whichever of the three situations the point is in. -/
theorem flushed11_eq (c : Dev nD) (t : Fin cfg0.N) :
    (dats m 0 c).flushed 11 t = ((cfg0.win 11).blk t).view.read (Elt Ideal) (apicalA (batchOf m c)) := by
  have hN : t.val < 64 := lt_of_lt_of_eq t.isLt N_0
  by_cases h0 : t.val % 64 = 0
  · have h1 : ¬t.val % 64 = 63 := by omega
    rw [flushed11_A m c t h0 h1]
    exact (congrArg ((cfg0.win 11).cut (grid0.coords t)) (Pieces.apical_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 0 t) (iblk m c 1 t) (iblk m c 2 t) (iblk m c 3 t) (iblk m c 4 t) (iblk m c 5 t) (iblk m c 6 t) (iblk m c 7 t) (iblk m c 8 t)
      ((hcond0_0 t).mpr h0) (fun h => h1 ((hcond0_1 t).mp h)))).trans (cut11 m c t)
  · by_cases h1 : t.val % 64 = 63
    · rw [flushed11_C m c t h0 h1]
      exact (congrArg ((cfg0.win 11).cut (grid0.coords t)) (Pieces.apical_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 0 t) (iblk m c 1 t) (iblk m c 2 t) (iblk m c 3 t) (iblk m c 4 t) (iblk m c 5 t) (iblk m c 6 t) (iblk m c 7 t) (iblk m c 8 t)
        (outsAt0 m c (t.val - 1) (Nat.lt_of_le_of_lt (Nat.sub_le _ _) t.isLt)).2.2.2.2.2.2.2 (fun h => h0 ((hcond0_0 t).mp h)) ((hcond0_1 t).mpr h1))).trans (cut11 m c t)
    · rw [flushed11_B m c t h0 h1]
      exact (congrArg ((cfg0.win 11).cut (grid0.coords t)) (Pieces.apical_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 0 t) (iblk m c 1 t) (iblk m c 2 t) (iblk m c 3 t) (iblk m c 4 t) (iblk m c 5 t) (iblk m c 6 t) (iblk m c 7 t) (iblk m c 8 t)
        (outsAt0 m c (t.val - 1) (Nat.lt_of_le_of_lt (Nat.sub_le _ _) t.isLt)).2.2.2.2.2.2.2 (fun h => h0 ((hcond0_0 t).mp h)) (fun h => h1 ((hcond0_1 t).mp h)))).trans (cut11 m c t)

/-- An index of the array is in point `t`'s block iff each coordinate is in the block's range on its axis. -/
theorem mem_blk11 (t : Fin cfg0.N) (i : S8192x1024.Idx) :
    i ∈ ((cfg0.win 11).blk t).view.set ↔ ∀ a : Fin 2, win0_11.index t a * S128x1024.size a ≤ (i a).val
      ∧ (i a).val < win0_11.index t a * S128x1024.size a + S128x1024.size a := by
  show i ∈ ((View.whole main_v1_2).slice (win0_11.rect t)).set ↔ _
  rw [View.set_slice_whole, Rect.mem_set_unit]
  exact Iff.rfl

/-- Row `r` of the array is in the block of point `r / 128`. -/
theorem cover11 (i : S8192x1024.Idx) :
    ∃ t : Fin cfg0.N, (cfg0.win 11).flush t = true ∧ i ∈ ((cfg0.win 11).blk t).view.set := by
  have hi0 : (i 0).val < 8192 := (i 0).isLt
  have hi1 : (i 1).val < 1024 := (i 1).isLt
  have ht : (i 0).val / 128 < cfg0.N := by rw [show cfg0.N = 64 from N_0]; omega
  refine ⟨⟨(i 0).val / 128, ht⟩, flush0_11 _, ?_⟩
  rw [mem_blk11]
  obtain ⟨e0, e1⟩ := idx_in11 ⟨(i 0).val / 128, ht⟩
  intro a
  match a with
  | ⟨0, _⟩ =>
    show win0_11.index ⟨(i 0).val / 128, ht⟩ (0 : Fin 2) * 128 ≤ (i 0).val
      ∧ (i 0).val < win0_11.index ⟨(i 0).val / 128, ht⟩ (0 : Fin 2) * 128 + 128
    rw [e0]; show (i 0).val / 128 * 128 ≤ (i 0).val ∧ (i 0).val < (i 0).val / 128 * 128 + 128; omega
  | ⟨1, _⟩ =>
    show win0_11.index ⟨(i 0).val / 128, ht⟩ (1 : Fin 2) * 1024 ≤ (i 1).val
      ∧ (i 1).val < win0_11.index ⟨(i 0).val / 128, ht⟩ (1 : Fin 2) * 1024 + 1024
    rw [e1]; omega

/-- The array ends holding the new apical voltage of the whole batch. -/
theorem final11 (c : Dev nD) : (dats m 0 c).arrAt 11 cfg0.N = apicalA (batchOf m c) :=
  (dats m 0 c).arrAt_eq_of_cover 11 _ (fun t _ => flushed11_eq m c t) cover11

/-! ## Window 12: the new somatic voltage -/

/-- The stored value of the tile at point `t`, read through the window's block, is block `t` of the batch's array. -/
theorem cut12 (c : Dev nD) (t : Fin cfg0.N) :
    (cfg0.win 12).cut (grid0.coords t) (k0_pay7 (F := Ideal) (k0_pay5 (iblk m c 6 t)) (k0_pay6 (iblk m c 0 t) (iblk m c 1 t) (iblk m c 2 t) (iblk m c 3 t) (iblk m c 4 t) (iblk m c 5 t)))
      = ((cfg0.win 12).blk t).view.read (Elt Ideal) (somaA (batchOf m c)) := by
  funext j
  obtain ⟨p, q, rfl⟩ : ∃ (p : Fin 128) (q : Fin 1024), j = ix2 p q := ⟨j 0, j 1, eq_ix2 j⟩
  have he : ((cfg0.win 12).blk t).view.emb (ix2 p q) = ix2 (rowOf (tileNo t) p) q := by
    obtain ⟨e0, e1⟩ := idx_in12 t
    funext a; apply Fin.ext
    match a with
    | ⟨0, _⟩ => show win0_12.index t (0 : Fin 2) * 128 + 1 * p.val = 128 * t.val + p.val; rw [e0]; omega
    | ⟨1, _⟩ => show win0_12.index t (1 : Fin 2) * 1024 + 1 * q.val = q.val; rw [e1]; omega
  show (k0_pay7 (F := Ideal) (k0_pay5 (iblk m c 6 t)) (k0_pay6 (iblk m c 0 t) (iblk m c 1 t) (iblk m c 2 t) (iblk m c 3 t) (iblk m c 4 t) (iblk m c 5 t))) (ix2 p q) = somaA (batchOf m c) (((cfg0.win 12).blk t).view.emb (ix2 p q))
  rw [he]
  refine (soma_stored (iblk m c 0 t) (iblk m c 1 t) (iblk m c 2 t) (iblk m c 3 t) (iblk m c 4 t) (iblk m c 5 t) (iblk m c 6 t) (iblk m c 7 t) (iblk m c 8 t) p q).trans ?_
  rw [tile_eq m c t]
  rfl

/-- What point `t` writes back is block `t` of the batch's array, whichever of the three situations the point is in. -/
theorem flushed12_eq (c : Dev nD) (t : Fin cfg0.N) :
    (dats m 0 c).flushed 12 t = ((cfg0.win 12).blk t).view.read (Elt Ideal) (somaA (batchOf m c)) := by
  have hN : t.val < 64 := lt_of_lt_of_eq t.isLt N_0
  by_cases h0 : t.val % 64 = 0
  · have h1 : ¬t.val % 64 = 63 := by omega
    rw [flushed12_A m c t h0 h1]
    exact (congrArg ((cfg0.win 12).cut (grid0.coords t)) (Pieces.soma_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 0 t) (iblk m c 1 t) (iblk m c 2 t) (iblk m c 3 t) (iblk m c 4 t) (iblk m c 5 t) (iblk m c 6 t) (iblk m c 7 t) (iblk m c 8 t)
      ((hcond0_0 t).mpr h0) (fun h => h1 ((hcond0_1 t).mp h)))).trans (cut12 m c t)
  · by_cases h1 : t.val % 64 = 63
    · rw [flushed12_C m c t h0 h1]
      exact (congrArg ((cfg0.win 12).cut (grid0.coords t)) (Pieces.soma_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 0 t) (iblk m c 1 t) (iblk m c 2 t) (iblk m c 3 t) (iblk m c 4 t) (iblk m c 5 t) (iblk m c 6 t) (iblk m c 7 t) (iblk m c 8 t)
        (outsAt0 m c (t.val - 1) (Nat.lt_of_le_of_lt (Nat.sub_le _ _) t.isLt)).2.2.2.2.2.2.2 (fun h => h0 ((hcond0_0 t).mp h)) ((hcond0_1 t).mpr h1))).trans (cut12 m c t)
    · rw [flushed12_B m c t h0 h1]
      exact (congrArg ((cfg0.win 12).cut (grid0.coords t)) (Pieces.soma_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 0 t) (iblk m c 1 t) (iblk m c 2 t) (iblk m c 3 t) (iblk m c 4 t) (iblk m c 5 t) (iblk m c 6 t) (iblk m c 7 t) (iblk m c 8 t)
        (outsAt0 m c (t.val - 1) (Nat.lt_of_le_of_lt (Nat.sub_le _ _) t.isLt)).2.2.2.2.2.2.2 (fun h => h0 ((hcond0_0 t).mp h)) (fun h => h1 ((hcond0_1 t).mp h)))).trans (cut12 m c t)

/-- An index of the array is in point `t`'s block iff each coordinate is in the block's range on its axis. -/
theorem mem_blk12 (t : Fin cfg0.N) (i : S8192x1024.Idx) :
    i ∈ ((cfg0.win 12).blk t).view.set ↔ ∀ a : Fin 2, win0_12.index t a * S128x1024.size a ≤ (i a).val
      ∧ (i a).val < win0_12.index t a * S128x1024.size a + S128x1024.size a := by
  show i ∈ ((View.whole main_v1_3).slice (win0_12.rect t)).set ↔ _
  rw [View.set_slice_whole, Rect.mem_set_unit]
  exact Iff.rfl

/-- Row `r` of the array is in the block of point `r / 128`. -/
theorem cover12 (i : S8192x1024.Idx) :
    ∃ t : Fin cfg0.N, (cfg0.win 12).flush t = true ∧ i ∈ ((cfg0.win 12).blk t).view.set := by
  have hi0 : (i 0).val < 8192 := (i 0).isLt
  have hi1 : (i 1).val < 1024 := (i 1).isLt
  have ht : (i 0).val / 128 < cfg0.N := by rw [show cfg0.N = 64 from N_0]; omega
  refine ⟨⟨(i 0).val / 128, ht⟩, flush0_12 _, ?_⟩
  rw [mem_blk12]
  obtain ⟨e0, e1⟩ := idx_in12 ⟨(i 0).val / 128, ht⟩
  intro a
  match a with
  | ⟨0, _⟩ =>
    show win0_12.index ⟨(i 0).val / 128, ht⟩ (0 : Fin 2) * 128 ≤ (i 0).val
      ∧ (i 0).val < win0_12.index ⟨(i 0).val / 128, ht⟩ (0 : Fin 2) * 128 + 128
    rw [e0]; show (i 0).val / 128 * 128 ≤ (i 0).val ∧ (i 0).val < (i 0).val / 128 * 128 + 128; omega
  | ⟨1, _⟩ =>
    show win0_12.index ⟨(i 0).val / 128, ht⟩ (1 : Fin 2) * 1024 ≤ (i 1).val
      ∧ (i 1).val < win0_12.index ⟨(i 0).val / 128, ht⟩ (1 : Fin 2) * 1024 + 1024
    rw [e1]; omega

/-- The array ends holding the new somatic voltage of the whole batch. -/
theorem final12 (c : Dev nD) : (dats m 0 c).arrAt 12 cfg0.N = somaA (batchOf m c) :=
  (dats m 0 c).arrAt_eq_of_cover 12 _ (fun t _ => flushed12_eq m c t) cover12

/-! ## Window 13: the new presynaptic trace -/

/-- The stored value of the tile at point `t`, read through the window's block, is block `t` of the batch's array. -/
theorem cut13 (c : Dev nD) (t : Fin cfg0.N) :
    (cfg0.win 13).cut (grid0.coords t) (k0_pay9 (F := Ideal) (iblk m c 0 t) (iblk m c 7 t))
      = ((cfg0.win 13).blk t).view.read (Elt Ideal) (preTraceA (batchOf m c)) := by
  funext j
  obtain ⟨p, q, rfl⟩ : ∃ (p : Fin 128) (q : Fin 1024), j = ix2 p q := ⟨j 0, j 1, eq_ix2 j⟩
  have he : ((cfg0.win 13).blk t).view.emb (ix2 p q) = ix2 (rowOf (tileNo t) p) q := by
    obtain ⟨e0, e1⟩ := idx_in13 t
    funext a; apply Fin.ext
    match a with
    | ⟨0, _⟩ => show win0_13.index t (0 : Fin 2) * 128 + 1 * p.val = 128 * t.val + p.val; rw [e0]; omega
    | ⟨1, _⟩ => show win0_13.index t (1 : Fin 2) * 1024 + 1 * q.val = q.val; rw [e1]; omega
  show (k0_pay9 (F := Ideal) (iblk m c 0 t) (iblk m c 7 t)) (ix2 p q) = preTraceA (batchOf m c) (((cfg0.win 13).blk t).view.emb (ix2 p q))
  rw [he]
  refine (preTrace_stored (iblk m c 0 t) (iblk m c 1 t) (iblk m c 2 t) (iblk m c 3 t) (iblk m c 4 t) (iblk m c 5 t) (iblk m c 6 t) (iblk m c 7 t) (iblk m c 8 t) p q).trans ?_
  rw [tile_eq m c t]
  rfl

/-- What point `t` writes back is block `t` of the batch's array, whichever of the three situations the point is in. -/
theorem flushed13_eq (c : Dev nD) (t : Fin cfg0.N) :
    (dats m 0 c).flushed 13 t = ((cfg0.win 13).blk t).view.read (Elt Ideal) (preTraceA (batchOf m c)) := by
  have hN : t.val < 64 := lt_of_lt_of_eq t.isLt N_0
  by_cases h0 : t.val % 64 = 0
  · have h1 : ¬t.val % 64 = 63 := by omega
    rw [flushed13_A m c t h0 h1]
    exact (congrArg ((cfg0.win 13).cut (grid0.coords t)) (Pieces.preTrace_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 0 t) (iblk m c 1 t) (iblk m c 2 t) (iblk m c 3 t) (iblk m c 4 t) (iblk m c 5 t) (iblk m c 6 t) (iblk m c 7 t) (iblk m c 8 t)
      ((hcond0_0 t).mpr h0) (fun h => h1 ((hcond0_1 t).mp h)))).trans (cut13 m c t)
  · by_cases h1 : t.val % 64 = 63
    · rw [flushed13_C m c t h0 h1]
      exact (congrArg ((cfg0.win 13).cut (grid0.coords t)) (Pieces.preTrace_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 0 t) (iblk m c 1 t) (iblk m c 2 t) (iblk m c 3 t) (iblk m c 4 t) (iblk m c 5 t) (iblk m c 6 t) (iblk m c 7 t) (iblk m c 8 t)
        (outsAt0 m c (t.val - 1) (Nat.lt_of_le_of_lt (Nat.sub_le _ _) t.isLt)).2.2.2.2.2.2.2 (fun h => h0 ((hcond0_0 t).mp h)) ((hcond0_1 t).mpr h1))).trans (cut13 m c t)
    · rw [flushed13_B m c t h0 h1]
      exact (congrArg ((cfg0.win 13).cut (grid0.coords t)) (Pieces.preTrace_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 0 t) (iblk m c 1 t) (iblk m c 2 t) (iblk m c 3 t) (iblk m c 4 t) (iblk m c 5 t) (iblk m c 6 t) (iblk m c 7 t) (iblk m c 8 t)
        (outsAt0 m c (t.val - 1) (Nat.lt_of_le_of_lt (Nat.sub_le _ _) t.isLt)).2.2.2.2.2.2.2 (fun h => h0 ((hcond0_0 t).mp h)) (fun h => h1 ((hcond0_1 t).mp h)))).trans (cut13 m c t)

/-- An index of the array is in point `t`'s block iff each coordinate is in the block's range on its axis. -/
theorem mem_blk13 (t : Fin cfg0.N) (i : S8192x1024.Idx) :
    i ∈ ((cfg0.win 13).blk t).view.set ↔ ∀ a : Fin 2, win0_13.index t a * S128x1024.size a ≤ (i a).val
      ∧ (i a).val < win0_13.index t a * S128x1024.size a + S128x1024.size a := by
  show i ∈ ((View.whole main_v1_4).slice (win0_13.rect t)).set ↔ _
  rw [View.set_slice_whole, Rect.mem_set_unit]
  exact Iff.rfl

/-- Row `r` of the array is in the block of point `r / 128`. -/
theorem cover13 (i : S8192x1024.Idx) :
    ∃ t : Fin cfg0.N, (cfg0.win 13).flush t = true ∧ i ∈ ((cfg0.win 13).blk t).view.set := by
  have hi0 : (i 0).val < 8192 := (i 0).isLt
  have hi1 : (i 1).val < 1024 := (i 1).isLt
  have ht : (i 0).val / 128 < cfg0.N := by rw [show cfg0.N = 64 from N_0]; omega
  refine ⟨⟨(i 0).val / 128, ht⟩, flush0_13 _, ?_⟩
  rw [mem_blk13]
  obtain ⟨e0, e1⟩ := idx_in13 ⟨(i 0).val / 128, ht⟩
  intro a
  match a with
  | ⟨0, _⟩ =>
    show win0_13.index ⟨(i 0).val / 128, ht⟩ (0 : Fin 2) * 128 ≤ (i 0).val
      ∧ (i 0).val < win0_13.index ⟨(i 0).val / 128, ht⟩ (0 : Fin 2) * 128 + 128
    rw [e0]; show (i 0).val / 128 * 128 ≤ (i 0).val ∧ (i 0).val < (i 0).val / 128 * 128 + 128; omega
  | ⟨1, _⟩ =>
    show win0_13.index ⟨(i 0).val / 128, ht⟩ (1 : Fin 2) * 1024 ≤ (i 1).val
      ∧ (i 1).val < win0_13.index ⟨(i 0).val / 128, ht⟩ (1 : Fin 2) * 1024 + 1024
    rw [e1]; omega

/-- The array ends holding the new presynaptic trace of the whole batch. -/
theorem final13 (c : Dev nD) : (dats m 0 c).arrAt 13 cfg0.N = preTraceA (batchOf m c) :=
  (dats m 0 c).arrAt_eq_of_cover 13 _ (fun t _ => flushed13_eq m c t) cover13

/-! ## Window 14: the new postsynaptic trace -/

/-- The stored value of the tile at point `t`, read through the window's block, is block `t` of the batch's array. -/
theorem cut14 (c : Dev nD) (t : Fin cfg0.N) :
    (cfg0.win 14).cut (grid0.coords t) (k0_pay10 (F := Ideal) (iblk m c 8 t) (k0_pay3 (iblk m c 0 t) (iblk m c 2 t) (iblk m c 4 t)) (k0_pay5 (iblk m c 6 t)) (k0_pay6 (iblk m c 0 t) (iblk m c 1 t) (iblk m c 2 t) (iblk m c 3 t) (iblk m c 4 t) (iblk m c 5 t)))
      = ((cfg0.win 14).blk t).view.read (Elt Ideal) (postTraceA (batchOf m c)) := by
  funext j
  obtain ⟨p, q, rfl⟩ : ∃ (p : Fin 128) (q : Fin 1024), j = ix2 p q := ⟨j 0, j 1, eq_ix2 j⟩
  have he : ((cfg0.win 14).blk t).view.emb (ix2 p q) = ix2 (rowOf (tileNo t) p) q := by
    obtain ⟨e0, e1⟩ := idx_in14 t
    funext a; apply Fin.ext
    match a with
    | ⟨0, _⟩ => show win0_14.index t (0 : Fin 2) * 128 + 1 * p.val = 128 * t.val + p.val; rw [e0]; omega
    | ⟨1, _⟩ => show win0_14.index t (1 : Fin 2) * 1024 + 1 * q.val = q.val; rw [e1]; omega
  show (k0_pay10 (F := Ideal) (iblk m c 8 t) (k0_pay3 (iblk m c 0 t) (iblk m c 2 t) (iblk m c 4 t)) (k0_pay5 (iblk m c 6 t)) (k0_pay6 (iblk m c 0 t) (iblk m c 1 t) (iblk m c 2 t) (iblk m c 3 t) (iblk m c 4 t) (iblk m c 5 t))) (ix2 p q) = postTraceA (batchOf m c) (((cfg0.win 14).blk t).view.emb (ix2 p q))
  rw [he]
  refine (postTrace_stored (iblk m c 0 t) (iblk m c 1 t) (iblk m c 2 t) (iblk m c 3 t) (iblk m c 4 t) (iblk m c 5 t) (iblk m c 6 t) (iblk m c 7 t) (iblk m c 8 t) p q).trans ?_
  rw [tile_eq m c t]
  rfl

/-- What point `t` writes back is block `t` of the batch's array, whichever of the three situations the point is in. -/
theorem flushed14_eq (c : Dev nD) (t : Fin cfg0.N) :
    (dats m 0 c).flushed 14 t = ((cfg0.win 14).blk t).view.read (Elt Ideal) (postTraceA (batchOf m c)) := by
  have hN : t.val < 64 := lt_of_lt_of_eq t.isLt N_0
  by_cases h0 : t.val % 64 = 0
  · have h1 : ¬t.val % 64 = 63 := by omega
    rw [flushed14_A m c t h0 h1]
    exact (congrArg ((cfg0.win 14).cut (grid0.coords t)) (Pieces.postTrace_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 0 t) (iblk m c 1 t) (iblk m c 2 t) (iblk m c 3 t) (iblk m c 4 t) (iblk m c 5 t) (iblk m c 6 t) (iblk m c 7 t) (iblk m c 8 t)
      ((hcond0_0 t).mpr h0) (fun h => h1 ((hcond0_1 t).mp h)))).trans (cut14 m c t)
  · by_cases h1 : t.val % 64 = 63
    · rw [flushed14_C m c t h0 h1]
      exact (congrArg ((cfg0.win 14).cut (grid0.coords t)) (Pieces.postTrace_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 0 t) (iblk m c 1 t) (iblk m c 2 t) (iblk m c 3 t) (iblk m c 4 t) (iblk m c 5 t) (iblk m c 6 t) (iblk m c 7 t) (iblk m c 8 t)
        (outsAt0 m c (t.val - 1) (Nat.lt_of_le_of_lt (Nat.sub_le _ _) t.isLt)).2.2.2.2.2.2.2 (fun h => h0 ((hcond0_0 t).mp h)) ((hcond0_1 t).mpr h1))).trans (cut14 m c t)
    · rw [flushed14_B m c t h0 h1]
      exact (congrArg ((cfg0.win 14).cut (grid0.coords t)) (Pieces.postTrace_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 0 t) (iblk m c 1 t) (iblk m c 2 t) (iblk m c 3 t) (iblk m c 4 t) (iblk m c 5 t) (iblk m c 6 t) (iblk m c 7 t) (iblk m c 8 t)
        (outsAt0 m c (t.val - 1) (Nat.lt_of_le_of_lt (Nat.sub_le _ _) t.isLt)).2.2.2.2.2.2.2 (fun h => h0 ((hcond0_0 t).mp h)) (fun h => h1 ((hcond0_1 t).mp h)))).trans (cut14 m c t)

/-- An index of the array is in point `t`'s block iff each coordinate is in the block's range on its axis. -/
theorem mem_blk14 (t : Fin cfg0.N) (i : S8192x1024.Idx) :
    i ∈ ((cfg0.win 14).blk t).view.set ↔ ∀ a : Fin 2, win0_14.index t a * S128x1024.size a ≤ (i a).val
      ∧ (i a).val < win0_14.index t a * S128x1024.size a + S128x1024.size a := by
  show i ∈ ((View.whole main_v1_5).slice (win0_14.rect t)).set ↔ _
  rw [View.set_slice_whole, Rect.mem_set_unit]
  exact Iff.rfl

/-- Row `r` of the array is in the block of point `r / 128`. -/
theorem cover14 (i : S8192x1024.Idx) :
    ∃ t : Fin cfg0.N, (cfg0.win 14).flush t = true ∧ i ∈ ((cfg0.win 14).blk t).view.set := by
  have hi0 : (i 0).val < 8192 := (i 0).isLt
  have hi1 : (i 1).val < 1024 := (i 1).isLt
  have ht : (i 0).val / 128 < cfg0.N := by rw [show cfg0.N = 64 from N_0]; omega
  refine ⟨⟨(i 0).val / 128, ht⟩, flush0_14 _, ?_⟩
  rw [mem_blk14]
  obtain ⟨e0, e1⟩ := idx_in14 ⟨(i 0).val / 128, ht⟩
  intro a
  match a with
  | ⟨0, _⟩ =>
    show win0_14.index ⟨(i 0).val / 128, ht⟩ (0 : Fin 2) * 128 ≤ (i 0).val
      ∧ (i 0).val < win0_14.index ⟨(i 0).val / 128, ht⟩ (0 : Fin 2) * 128 + 128
    rw [e0]; show (i 0).val / 128 * 128 ≤ (i 0).val ∧ (i 0).val < (i 0).val / 128 * 128 + 128; omega
  | ⟨1, _⟩ =>
    show win0_14.index ⟨(i 0).val / 128, ht⟩ (1 : Fin 2) * 1024 ≤ (i 1).val
      ∧ (i 1).val < win0_14.index ⟨(i 0).val / 128, ht⟩ (1 : Fin 2) * 1024 + 1024
    rw [e1]; omega

/-- The array ends holding the new postsynaptic trace of the whole batch. -/
theorem final14 (c : Dev nD) : (dats m 0 c).arrAt 14 cfg0.N = postTraceA (batchOf m c) :=
  (dats m 0 c).arrAt_eq_of_cover 14 _ (fun t _ => flushed14_eq m c t) cover14

end Cert.TwoComp

end
-- ==== Proof.Accumulate.lean ====
/-
  The Hebbian accumulator over the grid, and the new weights.

  The accumulator is reset to zero at the first grid point and each point adds its tile's outer product of the two
  new traces; so after the last point it holds the sum of the 64 tiles' outer products, which is the batch's sum
  over its 8192 rows. At the last point, and only there, the kernel stores the old weights plus that sum scaled by
  the learning rate and divided by the batch size; the reference divides first and scales after, the same number on
  the extended reals. That one write-back is the whole array.
-/
import proofs.«159914_j9990093930915_1_alg».proof.Proof.Tiles
import proofs.«159914_j9990093930915_1_alg».proof.Proof.Pieces

noncomputable section

namespace Cert.TwoComp

open Cert.KernelIdeal Cert.KernelIdeal.Gen Cert.KernelIdeal.GenP Cert.KernelIdeal.ValueP
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The first point leaves the zero array plus tile 0's outer product in the accumulator, whatever it held. -/
theorem first_point (c : Dev nD) (hb : 0 < cfg0.N) (acc : Vec Ideal S1024x1024 .f32) (a b : Fin 1024) :
    scAt0_0 m c 0 hb acc (ix2 a b) = 0 + hebb ((batchOf m c).tile (tileNo ⟨0, hb⟩)) a b := by
  unfold scAt0_0
  rw [dif_pos (Nat.zero_mod 64), dif_neg (by decide)]
  refine (congrFun (Pieces.acc_A (F := Ideal) c (grid0.coords (⟨0, hb⟩ : Fin cfg0.N)) (ms0_0 (⟨0, hb⟩ : Fin cfg0.N)) (hs0_0 (⟨0, hb⟩ : Fin cfg0.N)) (ms0_1 (⟨0, hb⟩ : Fin cfg0.N)) (hs0_1 (⟨0, hb⟩ : Fin cfg0.N)) (ms0_2 (⟨0, hb⟩ : Fin cfg0.N)) (hs0_2 (⟨0, hb⟩ : Fin cfg0.N)) (ms0_3 (⟨0, hb⟩ : Fin cfg0.N)) (hs0_3 (⟨0, hb⟩ : Fin cfg0.N)) (ms0_4 (⟨0, hb⟩ : Fin cfg0.N)) (hs0_4 (⟨0, hb⟩ : Fin cfg0.N)) (ms0_5 (⟨0, hb⟩ : Fin cfg0.N)) (hs0_5 (⟨0, hb⟩ : Fin cfg0.N)) (ms0_6 (⟨0, hb⟩ : Fin cfg0.N)) (hs0_6 (⟨0, hb⟩ : Fin cfg0.N)) (ms0_7 (⟨0, hb⟩ : Fin cfg0.N)) (hs0_7 (⟨0, hb⟩ : Fin cfg0.N)) (ms0_8 (⟨0, hb⟩ : Fin cfg0.N)) (hs0_8 (⟨0, hb⟩ : Fin cfg0.N)) (ms0_9 (⟨0, hb⟩ : Fin cfg0.N)) (hs0_9 (⟨0, hb⟩ : Fin cfg0.N)) (ms0_10 (⟨0, hb⟩ : Fin cfg0.N)) (hs0_10 (⟨0, hb⟩ : Fin cfg0.N)) (ms0_11 (⟨0, hb⟩ : Fin cfg0.N)) (hs0_11 (⟨0, hb⟩ : Fin cfg0.N)) (ms0_12 (⟨0, hb⟩ : Fin cfg0.N)) (hs0_12 (⟨0, hb⟩ : Fin cfg0.N)) (ms0_13 (⟨0, hb⟩ : Fin cfg0.N)) (hs0_13 (⟨0, hb⟩ : Fin cfg0.N)) (ms0_14 (⟨0, hb⟩ : Fin cfg0.N)) (hs0_14 (⟨0, hb⟩ : Fin cfg0.N)) (ms0_15 (⟨0, hb⟩ : Fin cfg0.N)) (hs0_15 (⟨0, hb⟩ : Fin cfg0.N)) scM0_0 (Memref.isWhole_whole _) (iblk m c 0 (⟨0, hb⟩ : Fin cfg0.N)) (iblk m c 1 (⟨0, hb⟩ : Fin cfg0.N)) (iblk m c 2 (⟨0, hb⟩ : Fin cfg0.N)) (iblk m c 3 (⟨0, hb⟩ : Fin cfg0.N)) (iblk m c 4 (⟨0, hb⟩ : Fin cfg0.N)) (iblk m c 5 (⟨0, hb⟩ : Fin cfg0.N)) (iblk m c 6 (⟨0, hb⟩ : Fin cfg0.N)) (iblk m c 7 (⟨0, hb⟩ : Fin cfg0.N)) (iblk m c 8 (⟨0, hb⟩ : Fin cfg0.N)) _ _) (ix2 a b)).trans ?_
  refine (acc_stored (iblk m c 0 (⟨0, hb⟩ : Fin cfg0.N)) (iblk m c 1 (⟨0, hb⟩ : Fin cfg0.N)) (iblk m c 2 (⟨0, hb⟩ : Fin cfg0.N)) (iblk m c 3 (⟨0, hb⟩ : Fin cfg0.N)) (iblk m c 4 (⟨0, hb⟩ : Fin cfg0.N)) (iblk m c 5 (⟨0, hb⟩ : Fin cfg0.N)) (iblk m c 6 (⟨0, hb⟩ : Fin cfg0.N)) (iblk m c 7 (⟨0, hb⟩ : Fin cfg0.N)) (iblk m c 8 (⟨0, hb⟩ : Fin cfg0.N)) (k0_pay2 (F := Ideal)) a b).trans ?_
  rw [reset_stored, tile_eq m c ⟨0, hb⟩]

/-- Every later point adds its tile's outer product to what the point before left. -/
theorem later_point (c : Dev nD) (n : ℕ) (hb : n < cfg0.N) (hn : 0 < n) (acc : Vec Ideal S1024x1024 .f32) (a b : Fin 1024) :
    scAt0_0 m c n hb acc (ix2 a b) = acc (ix2 a b) + hebb ((batchOf m c).tile (tileNo ⟨n, hb⟩)) a b := by
  have hN : n < 64 := lt_of_lt_of_eq hb N_0
  have h0 : ¬n % 64 = 0 := by omega
  unfold scAt0_0
  rw [dif_neg h0]
  by_cases h1 : n % 64 = 63
  · rw [dif_pos h1]
    refine (congrFun (Pieces.acc_C (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) scM0_0 (Memref.isWhole_whole _) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) acc _ _) (ix2 a b)).trans ?_
    refine (acc_stored (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) acc a b).trans ?_
    rw [tile_eq m c ⟨n, hb⟩]
  · rw [dif_neg h1]
    refine (congrFun (Pieces.acc_B (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) scM0_0 (Memref.isWhole_whole _) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) acc _ _) (ix2 a b)).trans ?_
    refine (acc_stored (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) acc a b).trans ?_
    rw [tile_eq m c ⟨n, hb⟩]

/-- After point `n` the accumulator holds the sum of the outer products of tiles `0 … n`. -/
theorem acc_after (c : Dev nD) (n : ℕ) (hn : n < cfg0.N) (i : S1024x1024.Idx) :
    (outsAt0 m c n hn).2.2.2.2.2.2.2 i = 0 + ∑ s ∈ Finset.range (n + 1), tileHebb (batchOf m c) s i := by
  have hN : n < 64 := lt_of_lt_of_eq hn N_0
  rw [soutsAt0_0_sweep m c n hn]
  have key := Pipeline.accAt_add_apply (fun n h => scAt0_0 m c n h (VS0_0.read (Elt Ideal) VS0_0.junk)) (scAt0_0 m c)
    (fun _ => (0 : EReal)) (tileHebb (batchOf m c)) 0 63
    (fun h i => by
      obtain ⟨a, b, rfl⟩ : ∃ (a b : Fin 1024), i = ix2 a b := ⟨i 0, i 1, eq_ix2 i⟩
      rw [first_point]
      unfold tileHebb
      rw [dif_pos (by decide : 0 < 64)]
      rfl)
    (fun k h acc i hk hle => by
      obtain ⟨a, b, rfl⟩ : ∃ (a b : Fin 1024), i = ix2 a b := ⟨i 0, i 1, eq_ix2 i⟩
      have hk64 : k < 64 := by omega
      rw [later_point m c k h hk]
      unfold tileHebb
      rw [dif_pos hk64]
      rfl)
    n (by omega) (by omega) i
  rw [key]
  exact congrArg (0 + ·) (Finset.sum_congr rfl fun s _ => by rw [Nat.zero_add])

/-- The printed index map of the weights' window: its one block is the whole array. -/
theorem emb15 (t : Fin cfg0.N) (a b : Fin 1024) : ((cfg0.win 15).blk t).view.emb (ix2 a b) = ix2 a b := by
  obtain ⟨e0, e1⟩ := idx_in15 t
  funext x; apply Fin.ext
  match x with
  | ⟨0, _⟩ => show win0_15.index t (0 : Fin 2) * 1024 + 1 * a.val = a.val; rw [e0]; omega
  | ⟨1, _⟩ => show win0_15.index t (1 : Fin 2) * 1024 + 1 * b.val = b.val; rw [e1]; omega

/-- The one point that writes the weights back writes the specification's new weights. -/
theorem flushed15_eq (c : Dev nD) (t : Fin cfg0.N) (hf : (cfg0.win 15).flush t = true) :
    (dats m 0 c).flushed 15 t = ((cfg0.win 15).blk t).view.read (Elt Ideal) (weightA (batchOf m c)) := by
  have hN : t.val < 64 := lt_of_lt_of_eq t.isLt N_0
  have h1 : t.val % 64 = 63 := (flush0_15 t).mp hf
  have h0 : ¬t.val % 64 = 0 := by omega
  have h63 : t.val = 63 := by omega
  rw [flushed15_C m c t h0 h1]
  refine (congrArg ((cfg0.win 15).cut (grid0.coords t)) (Pieces.weight_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 0 t) (iblk m c 1 t) (iblk m c 2 t) (iblk m c 3 t) (iblk m c 4 t) (iblk m c 5 t) (iblk m c 6 t) (iblk m c 7 t) (iblk m c 8 t)
    (outsAt0 m c (t.val - 1) (Nat.lt_of_le_of_lt (Nat.sub_le _ _) t.isLt)).2.2.2.2.2.2.2 (fun h => h0 ((hcond0_0 t).mp h)) ((hcond0_1 t).mpr h1))).trans ?_
  -- the updated accumulator the store reads is what the run's contents name after this point
  have hacc : k0_pay11 (F := Ideal) (iblk m c 0 t) (iblk m c 7 t) (iblk m c 8 t) (k0_pay3 (iblk m c 0 t) (iblk m c 2 t) (iblk m c 4 t)) (k0_pay5 (iblk m c 6 t)) (k0_pay6 (iblk m c 0 t) (iblk m c 1 t) (iblk m c 2 t) (iblk m c 3 t) (iblk m c 4 t) (iblk m c 5 t)) (outsAt0 m c (t.val - 1) (Nat.lt_of_le_of_lt (Nat.sub_le _ _) t.isLt)).2.2.2.2.2.2.2
      = (outsAt0 m c t.val t.isLt).2.2.2.2.2.2.2 := by
    rw [outsAt0_C m c t h0 h1]
    dsimp only
    exact (Pieces.acc_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 0 t) (iblk m c 1 t) (iblk m c 2 t) (iblk m c 3 t) (iblk m c 4 t) (iblk m c 5 t) (iblk m c 6 t) (iblk m c 7 t) (iblk m c 8 t)
      (outsAt0 m c (t.val - 1) (Nat.lt_of_le_of_lt (Nat.sub_le _ _) t.isLt)).2.2.2.2.2.2.2 (fun h => h0 ((hcond0_0 t).mp h)) ((hcond0_1 t).mpr h1)).symm
  rw [hacc]
  funext j
  obtain ⟨a, b, rfl⟩ : ∃ (a b : Fin 1024), j = ix2 a b := ⟨j 0, j 1, eq_ix2 j⟩
  show k0_pay1 (F := Ideal) (iblk m c 2 t) ((outsAt0 m c t.val t.isLt).2.2.2.2.2.2.2) (ix2 a b)
    = weightA (batchOf m c) (((cfg0.win 15).blk t).view.emb (ix2 a b))
  rw [emb15, weight_stored, acc_after m c t.val t.isLt (ix2 a b), block2 m c t]
  show (batchOf m c).Wff (ix2 a b) + Ideal.div (rate * (0 + ∑ s ∈ Finset.range (t.val + 1), tileHebb (batchOf m c) s (ix2 a b))) batch
    = weight (batchOf m c) a b
  rw [weight_eq, hebb_eq_sum_tiles, h63, zero_add]

/-- An index of the weights' array is in the block of the point that writes it back. -/
theorem cover15 (i : S1024x1024.Idx) :
    ∃ t : Fin cfg0.N, (cfg0.win 15).flush t = true ∧ i ∈ ((cfg0.win 15).blk t).view.set := by
  have hi0 : (i 0).val < 1024 := (i 0).isLt
  have hi1 : (i 1).val < 1024 := (i 1).isLt
  have ht : 63 < cfg0.N := by rw [show cfg0.N = 64 from N_0]; decide
  refine ⟨⟨63, ht⟩, (flush0_15 _).mpr rfl, ?_⟩
  show i ∈ ((View.whole main_v1_6).slice (win0_15.rect ⟨63, ht⟩)).set
  rw [View.set_slice_whole, Rect.mem_set_unit]
  obtain ⟨e0, e1⟩ := idx_in15 ⟨63, ht⟩
  intro a
  match a with
  | ⟨0, _⟩ =>
    show win0_15.index ⟨63, ht⟩ (0 : Fin 2) * 1024 ≤ (i 0).val ∧ (i 0).val < win0_15.index ⟨63, ht⟩ (0 : Fin 2) * 1024 + 1024
    rw [e0]; omega
  | ⟨1, _⟩ =>
    show win0_15.index ⟨63, ht⟩ (1 : Fin 2) * 1024 ≤ (i 1).val ∧ (i 1).val < win0_15.index ⟨63, ht⟩ (1 : Fin 2) * 1024 + 1024
    rw [e1]; omega

/-- The weights' array ends holding the specification's new weights. -/
theorem final15 (c : Dev nD) : (dats m 0 c).arrAt 15 cfg0.N = weightA (batchOf m c) :=
  (dats m 0 c).arrAt_eq_of_cover 15 _ (fun t hf => flushed15_eq m c t hf) cover15

end Cert.TwoComp

end
-- ==== Proof.RefStages.lean ====
/-
  The reference program's seven results, read at an index on the extended reals.

  Each result of the reference is a chain of whole-array operations: products with the two weight matrices, scalings
  by broadcast constants, sums and differences, a comparison with zero converted to a number, a transpose and a
  product contracting the batch axis, a division by the batch size. Read at (row, column) each is the specification's
  function of the nine arguments.
-/
import proofs.«159914_j9990093930915_1_alg».proof.Proof.Gen.ReferenceIdeal.Read
import proofs.«159914_j9990093930915_1_alg».proof.Proof.Spec

noncomputable section

namespace Cert.TwoComp

open Cert.ReferenceIdeal Cert.ReferenceIdeal.Read Idealize.ShloMosaic Idealize.ShloMosaic.ValueIdx

section

variable (x0 x1 : Mat 8192 1024) (x2 x3 : Mat 1024 1024) (x4 x5 x6 x7 x8 : Mat 8192 1024)

local notation "R" => (Ins.mk x0 x1 x2 x3 x4 x5 x6 x7 x8 : Ins 8192)

/-- The feed-forward product's operands at (r, j) and contraction position k are x (r, k) and W (k, j). -/
theorem lidx_v0 (r : Fin 8192) (j k : Fin 1024) : lidx_main_v0 (ix2 r j) k = ix2 r k :=
  funext fun a => Fin.ext (by match a with | ⟨0, _⟩ => rfl | ⟨1, _⟩ => rfl)
theorem ridx_v0 (r : Fin 8192) (j k : Fin 1024) : ridx_main_v0 (ix2 r j) k = ix2 k j :=
  funext fun a => Fin.ext (by match a with | ⟨0, _⟩ => rfl | ⟨1, _⟩ => rfl)
/-- The same for the feedback product. -/
theorem lidx_v6 (r : Fin 8192) (j k : Fin 1024) : lidx_main_v6 (ix2 r j) k = ix2 r k :=
  funext fun a => Fin.ext (by match a with | ⟨0, _⟩ => rfl | ⟨1, _⟩ => rfl)
theorem ridx_v6 (r : Fin 8192) (j k : Fin 1024) : ridx_main_v6 (ix2 r j) k = ix2 k j :=
  funext fun a => Fin.ext (by match a with | ⟨0, _⟩ => rfl | ⟨1, _⟩ => rfl)
/-- The Hebbian product's left operand is the transposed presynaptic trace: at (a, b) and batch row r it reads the
    trace at (r, a), and the right operand the postsynaptic trace at (r, b). -/
theorem lidx_v33 (a b : Fin 1024) (r : Fin 8192) : idx_main_v32 (lidx_main_v33 (ix2 a b) r) = ix2 r a :=
  funext fun x => Fin.ext (by match x with | ⟨0, _⟩ => rfl | ⟨1, _⟩ => rfl)
theorem ridx_v33 (a b : Fin 1024) (r : Fin 8192) : ridx_main_v33 (ix2 a b) r = ix2 r b :=
  funext fun x => Fin.ext (by match x with | ⟨0, _⟩ => rfl | ⟨1, _⟩ => rfl)

/-- The reference's basal voltage. -/
theorem ref_basal (r : Fin 8192) (j : Fin 1024) : val_main_v5 (F := Ideal) x0 x2 x4 (ix2 r j) = basal R r j := by
  rw [val_main_v5_apply, val_main_v2_apply, val_main_v4_apply, val_main_v1_apply, val_main_v3_apply, val_main_cst_apply,
    val_main_cst_0_apply, val_main_v0_apply]
  simp only [lidx_v0, ridx_v0]
  rfl

/-- The reference's apical voltage. -/
theorem ref_apical (r : Fin 8192) (j : Fin 1024) : val_main_v11 (F := Ideal) x1 x3 x5 (ix2 r j) = apical R r j := by
  rw [val_main_v11_apply, val_main_v8_apply, val_main_v10_apply, val_main_v7_apply, val_main_v9_apply, val_main_cst_1_apply,
    val_main_cst_2_apply, val_main_v6_apply]
  simp only [lidx_v6, ridx_v6]
  rfl

/-- The reference's somatic voltage. -/
theorem ref_soma (r : Fin 8192) (j : Fin 1024) :
    val_main_v17 (F := Ideal) x0 x1 x2 x3 x4 x5 x6 (ix2 r j) = soma R r j := by
  rw [val_main_v17_apply, val_main_v13_apply, val_main_v16_apply, val_main_v12_apply, val_main_v15_apply,
    val_main_cst_3_apply, val_main_cst_4_apply, val_main_v14_apply, ref_basal, ref_apical]
  rfl

/-- The reference's spikes. -/
theorem ref_spike (r : Fin 8192) (j : Fin 1024) :
    val_main_v20 (F := Ideal) x0 x1 x2 x3 x4 x5 x6 (ix2 r j) = spike R r j := by
  rw [val_main_v20_apply, val_main_v19_apply, val_main_v18_apply, val_main_cst_5_apply, ref_soma]
  rfl

/-- The reference's presynaptic trace. -/
theorem ref_preTrace (r : Fin 8192) (j : Fin 1024) : val_main_v26 (F := Ideal) x0 x7 (ix2 r j) = preTrace R r j := by
  rw [val_main_v26_apply, val_main_v23_apply, val_main_v25_apply, val_main_v22_apply, val_main_v24_apply,
    val_main_cst_6_apply, val_main_cst_7_apply]
  rfl

/-- The reference's postsynaptic trace. -/
theorem ref_postTrace (r : Fin 8192) (j : Fin 1024) :
    val_main_v31 (F := Ideal) x0 x1 x2 x3 x4 x5 x6 x8 (ix2 r j) = postTrace R r j := by
  rw [val_main_v31_apply, val_main_v28_apply, val_main_v30_apply, val_main_v27_apply, val_main_v29_apply,
    val_main_cst_8_apply, val_main_cst_9_apply, val_main_v21_apply, ref_soma, ref_basal]
  rfl

/-- The reference's new weights. -/
theorem ref_weight (a b : Fin 1024) :
    val_main_v38 (F := Ideal) x0 x1 x2 x3 x4 x5 x6 x7 x8 (ix2 a b) = weight R a b := by
  rw [val_main_v38_apply, val_main_v37_apply, val_main_v36_apply, val_main_cst_11_apply, val_main_v35_apply,
    val_main_v34_apply, val_main_cst_10_apply, val_main_v33_apply]
  have e : ∀ r : Fin 8192, val_main_v32 (F := Ideal) x0 x7 (lidx_main_v33 (ix2 a b) r)
      * val_main_v31 (F := Ideal) x0 x1 x2 x3 x4 x5 x6 x8 (ridx_main_v33 (ix2 a b) r)
      = preTrace R r a * postTrace R r b := fun r => by
    rw [val_main_v32_apply, lidx_v33, ridx_v33, ref_preTrace, ref_postTrace]
  rw [Finset.sum_congr rfl fun r _ => e r]
  rfl

/-! The same as whole arrays. -/

theorem ref_spikeA : val_main_v20 (F := Ideal) x0 x1 x2 x3 x4 x5 x6 = spikeA R :=
  funext fun i => by rw [eq_ix2 i]; exact ref_spike x0 x1 x2 x3 x4 x5 x6 x7 x8 _ _
theorem ref_basalA : val_main_v5 (F := Ideal) x0 x2 x4 = basalA R :=
  funext fun i => by rw [eq_ix2 i]; exact ref_basal x0 x1 x2 x3 x4 x5 x6 x7 x8 _ _
theorem ref_apicalA : val_main_v11 (F := Ideal) x1 x3 x5 = apicalA R :=
  funext fun i => by rw [eq_ix2 i]; exact ref_apical x0 x1 x2 x3 x4 x5 x6 x7 x8 _ _
theorem ref_somaA : val_main_v17 (F := Ideal) x0 x1 x2 x3 x4 x5 x6 = somaA R :=
  funext fun i => by rw [eq_ix2 i]; exact ref_soma x0 x1 x2 x3 x4 x5 x6 x7 x8 _ _
theorem ref_preTraceA : val_main_v26 (F := Ideal) x0 x7 = preTraceA R :=
  funext fun i => by rw [eq_ix2 i]; exact ref_preTrace x0 x1 x2 x3 x4 x5 x6 x7 x8 _ _
theorem ref_postTraceA : val_main_v31 (F := Ideal) x0 x1 x2 x3 x4 x5 x6 x8 = postTraceA R :=
  funext fun i => by rw [eq_ix2 i]; exact ref_postTrace x0 x1 x2 x3 x4 x5 x6 x7 x8 _ _
theorem ref_weightA : val_main_v38 (F := Ideal) x0 x1 x2 x3 x4 x5 x6 x7 x8 = weightA R :=
  funext fun i => by rw [eq_ix2 i]; exact ref_weight x0 x1 x2 x3 x4 x5 x6 x7 x8 _ _

end

/-! ## The reference's run, over the specification's arrays -/

section Run

open Idealize.ShloMosaic.TcCoe Idealize.SL.Sem

variable (m : (ℓ : Loc nD τ sig) → Buf (Elt Ideal) ℓ) (ρ : Dev nD → PrngReg)

/-- The batch the reference is run on: its nine argument arrays. -/
def refBatch (c : Dev nD) : Ins 8192 :=
  Ins.mk (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))

/-- Every execution of the reference ends with its seven results at the specification's arrays of its arguments, the
    arguments unchanged. -/
theorem ref_run : θ_run defs (onTc (τ := τ) (main (F := Ideal))) ⟨m, fun _ => 0, ρ⟩ fun r => ∀ c : Dev nD,
      r.2.mem ((c.tc : Thread nD τ).loc main_v20) = spikeA (refBatch m c)
      ∧ r.2.mem ((c.tc : Thread nD τ).loc main_v38) = weightA (refBatch m c)
      ∧ r.2.mem ((c.tc : Thread nD τ).loc main_v5) = basalA (refBatch m c)
      ∧ r.2.mem ((c.tc : Thread nD τ).loc main_v11) = apicalA (refBatch m c)
      ∧ r.2.mem ((c.tc : Thread nD τ).loc main_v17) = somaA (refBatch m c)
      ∧ r.2.mem ((c.tc : Thread nD τ).loc main_v26) = preTraceA (refBatch m c)
      ∧ r.2.mem ((c.tc : Thread nD τ).loc main_v31) = postTraceA (refBatch m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c =>
    ⟨(h c).1.trans ((val_main_v20_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))).trans
        (ref_spikeA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))),
      (h c).2.1.trans ((val_main_v38_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))).trans
        (ref_weightA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))),
      (h c).2.2.1.trans ((val_main_v5_eq (m ((c.tc : Thread nD τ).loc main_arg0)) (m ((c.tc : Thread nD τ).loc main_arg2)) (m ((c.tc : Thread nD τ).loc main_arg4))).trans
        (ref_basalA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))),
      (h c).2.2.2.1.trans ((val_main_v11_eq (m ((c.tc : Thread nD τ).loc main_arg1)) (m ((c.tc : Thread nD τ).loc main_arg3)) (m ((c.tc : Thread nD τ).loc main_arg5))).trans
        (ref_apicalA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))),
      (h c).2.2.2.2.1.trans ((val_main_v17_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))).trans
        (ref_somaA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))),
      (h c).2.2.2.2.2.1.trans ((val_main_v26_eq (m ((c.tc : Thread nD τ).loc main_arg0)) (m ((c.tc : Thread nD τ).loc main_arg7))).trans
        (ref_preTraceA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))),
      (h c).2.2.2.2.2.2.1.trans ((val_main_v31_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg8))).trans
        (ref_postTraceA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))),
      (h c).2.2.2.2.2.2.2⟩)
    (Cert.ReferenceIdeal.Value.run (F := Ideal) m ρ)

end Run

end Cert.TwoComp

end
-- ==== Proof.lean ====
/-
  One step of a two-compartment neuron layer with a Hebbian weight update: a Pallas kernel that streams the batch in 64
  tiles of 128 rows against the plain array program.

  Over the extended reals both compute, for every row of the batch, the new basal, apical and somatic voltages, the
  spikes and the two eligibility traces by the same operations on the same constants, and the new weights from the
  batch's sum of outer products of the traces. The kernel differs in three ways that do not change a number there:
  it rounds the matrix products' operands to a shorter float format (the identity on the extended reals); it sums
  the outer products tile by tile into an accumulator (a regrouping of a commutative, associative sum); and it scales
  by the learning rate before dividing by the batch size where the reference divides first (division by the nonzero
  real 8192 is a product, and products associate). No step needs the inputs to be finite.

  The three frames: the two kernels' are the frame certificates of their programs (the modules FrameK and FrameKI),
  the reference's is its run with the results dropped. The idealization rewrote nothing, so `preserves` is `True`.
-/
import proofs.«159914_j9990093930915_1_alg».proof.Defs
import proofs.«159914_j9990093930915_1_alg».proof.Proof.Gen.Kernel
import proofs.«159914_j9990093930915_1_alg».proof.Proof.Gen.KernelIdeal
import proofs.«159914_j9990093930915_1_alg».proof.Proof.Gen.ReferenceIdeal
import proofs.«159914_j9990093930915_1_alg».proof.Proof.Gen.Pre_finite_inputs
import proofs.«159914_j9990093930915_1_alg».proof.Proof.FrameK
import proofs.«159914_j9990093930915_1_alg».proof.Proof.Windows
import proofs.«159914_j9990093930915_1_alg».proof.Proof.Accumulate
import proofs.«159914_j9990093930915_1_alg».proof.Proof.RefStages
import Idealize.ShloMosaic.Adequacy
import Idealize.ShloMosaic.Init

noncomputable section

namespace Cert.Proof

open Idealize.ShloMosaic Idealize.ShloMosaic.TcCoe Idealize.SL.Sem Cert.TwoComp

/-- The idealized kernel's run: each of its seven result arrays ends at the specification's array of the batch it was
    launched on, the arguments unchanged. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ fun r => ∀ c : Dev Cert.KernelIdeal.nD,
      r.2.mem ((c.tc : Thread Cert.KernelIdeal.nD Cert.KernelIdeal.τ).loc Cert.KernelIdeal.main_v1_0) = spikeA (batchOf m c)
      ∧ r.2.mem ((c.tc : Thread Cert.KernelIdeal.nD Cert.KernelIdeal.τ).loc Cert.KernelIdeal.main_v1_6) = weightA (batchOf m c)
      ∧ r.2.mem ((c.tc : Thread Cert.KernelIdeal.nD Cert.KernelIdeal.τ).loc Cert.KernelIdeal.main_v1_1) = basalA (batchOf m c)
      ∧ r.2.mem ((c.tc : Thread Cert.KernelIdeal.nD Cert.KernelIdeal.τ).loc Cert.KernelIdeal.main_v1_2) = apicalA (batchOf m c)
      ∧ r.2.mem ((c.tc : Thread Cert.KernelIdeal.nD Cert.KernelIdeal.τ).loc Cert.KernelIdeal.main_v1_3) = somaA (batchOf m c)
      ∧ r.2.mem ((c.tc : Thread Cert.KernelIdeal.nD Cert.KernelIdeal.τ).loc Cert.KernelIdeal.main_v1_4) = preTraceA (batchOf m c)
      ∧ r.2.mem ((c.tc : Thread Cert.KernelIdeal.nD Cert.KernelIdeal.τ).loc Cert.KernelIdeal.main_v1_5) = postTraceA (batchOf m c)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8) :=
  (θ_run Cert.KernelIdeal.defs _ _).mono (fun r h c =>
    ⟨(h c).1.trans (final9 m c),
      (h c).2.2.2.2.2.2.1.trans (final15 m c),
      (h c).2.1.trans (final10 m c),
      (h c).2.2.1.trans (final11 m c),
      (h c).2.2.2.1.trans (final12 m c),
      (h c).2.2.2.2.1.trans (final13 m c),
      (h c).2.2.2.2.2.1.trans (final14 m c),
      (h c).2.2.2.2.2.2.2⟩)
    (Cert.KernelIdeal.ValueP.run_blocks (F := Ideal) m ρ)

theorem frame_kernel : Cert.frame_Kernel (hKernel := Cert.Kernel.Gen.facts) (hPre_finite_inputs := Cert.Pre_finite_inputs.Gen.facts) :=
  fun m ρ _ => Cert.Kernel.GenP.frame m ρ

theorem frame_kernelIdeal :
    Cert.frame_KernelIdeal (hKernelIdeal := Cert.KernelIdeal.Gen.facts) (hPre_finite_inputs := Cert.Pre_finite_inputs.Gen.facts) :=
  fun m ρ _ => Cert.KernelIdeal.GenP.frame m ρ

theorem frame_reference :
    Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2.2.2.2.2) (Cert.ReferenceIdeal.Value.run (F := Ideal) m ρ)

/-- From memories that agree on the nine arguments both programs end with the specification's seven arrays of one
    and the same batch. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  have hb : ∀ c, refBatch m' c = batchOf m c := fun c => by
    obtain ⟨e0, e1, e2, e3, e4, e5, e6, e7, e8⟩ := hagree c
    exact Ins.ext e0 e1 e2 e3 e4 e5 e6 e7 e8
  refine ⟨fun c => spikeA (batchOf m c), fun c => weightA (batchOf m c), fun c => basalA (batchOf m c),
    fun c => apicalA (batchOf m c), fun c => somaA (batchOf m c), fun c => preTraceA (batchOf m c),
    fun c => postTraceA (batchOf m c), kernel_run m ρ, ?_⟩
  refine (θ_run Cert.ReferenceIdeal.defs _ _).mono (fun r h c => ?_) (ref_run m' ρ')
  have h' := h c
  rw [hb c] at h'
  exact h'

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
